-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x65536 : Shape := ⟨3, ![4, 128, 65536]⟩
abbrev S4x65536x3 : Shape := ⟨3, ![4, 65536, 3]⟩
abbrev S128x128x16 : Shape := ⟨3, ![128, 128, 16]⟩
abbrev S128 : Shape := ⟨1, ![128]⟩
abbrev S_ : Shape := ⟨0, ![]⟩

class Facts : Prop where
  bcast_S_S4x128x65536 : S_.BroadcastsInDim S4x128x65536 (![] : Fin 0 → Fin S4x128x65536.rank)
  reducesTo_S4x128x65536_S_d0_1_2 : S4x128x65536.ReducesTo [0, 1, 2] S_
  h_S_ : 0 < S_.numel
  bcast_S_S128x128x16 : S_.BroadcastsInDim S128x128x16 (![] : Fin 0 → Fin S128x128x16.rank)
  reducesTo_S128x128x16_S_d0_1_2 : S128x128x16.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4x128x65536 .f32) (main_arg1 : IVec S4x65536x3 32) (main_arg2 : FVec F S128x128x16 .f32) (main_arg3 : FVec F S128 .f32) (main_arg4 : FVec F S128 .f32) : IVec S_ 1 :=
  let main_v0 : FVec F S4x128x65536 .f32 := Host.absf main_arg0
  let main_cst : FVec F S_ .f32 := constant S_ .f32 0x7F800000#32
  let main_v1 : FVec F S4x128x65536 .f32 := broadcastInDim S4x128x65536 ![] bcast_S_S4x128x65536 main_cst
  let main_v2 : IVec S4x128x65536 1 := cmpf .olt main_v0 main_v1
  let main_c : IVec S_ 1 := constantI S_ 1 1#1
  let main_v3 : IVec S_ 1 := (fun x v => Host.reduce IntOp.andi x v reducesTo_S4x128x65536_S_d0_1_2 h_S_) main_v2 main_c
  let main_v4 : FVec F S128x128x16 .f32 := Host.absf main_arg2
  let main_cst_0 : FVec F S_ .f32 := constant S_ .f32 0x7F800000#32
  let main_v5 : FVec F S128x128x16 .f32 := broadcastInDim S128x128x16 ![] bcast_S_S128x128x16 main_cst_0
  let main_v6 : IVec S128x128x16 1 := cmpf .olt main_v4 main_v5
  let main_c_1 : IVec S_ 1 := constantI S_ 1 1#1
  let main_v7 : IVec S_ 1 := (fun x v => Host.reduce IntOp.andi x v reducesTo_S128x128x16_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4x128x65536 : Shape := ⟨3, ![4, 128, 65536]⟩
abbrev S4x65536x3 : Shape := ⟨3, ![4, 65536, 3]⟩
abbrev S128x128x16 : Shape := ⟨3, ![128, 128, 16]⟩
abbrev S128 : Shape := ⟨1, ![128]⟩
abbrev S4x65536x128 : Shape := ⟨3, ![4, 65536, 128]⟩
abbrev S4x196608x1 : Shape := ⟨3, ![4, 196608, 1]⟩
abbrev S_ : Shape := ⟨0, ![]⟩
abbrev S1 : Shape := ⟨1, ![1]⟩
abbrev S1x1x1 : Shape := ⟨3, ![1, 1, 1]⟩
abbrev S4x196608 : Shape := ⟨2, ![4, 196608]⟩
abbrev S4x196608x128 : Shape := ⟨3, ![4, 196608, 128]⟩
abbrev S4x65536x3x128 : Shape := ⟨4, ![4, 65536, 3, 128]⟩
abbrev S128x128 : Shape := ⟨2, ![128, 128]⟩
abbrev S1x8192x128 : Shape := ⟨3, ![1, 8192, 128]⟩
abbrev S8192x128 : Shape := ⟨2, ![8192, 128]⟩
abbrev S1x1x128 : Shape := ⟨3, ![1, 1, 128]⟩
abbrev S1x128 : Shape := ⟨2, ![1, 128]⟩

abbrev nBuf : Space → Nat
  | .hbm => 74
  | .vmem => 13
  | .smem => 0
  | _ => 0

abbrev bufTy : (tb : Table) → Fin (tcTables nBuf tb) → BufTy
  | .hbm, ⟨0, _⟩ => ⟨S4x128x65536, .f32⟩
  | .hbm, ⟨1, _⟩ => ⟨S4x65536x3, .i32⟩
  | .hbm, ⟨2, _⟩ => ⟨S128x128x16, .f32⟩
  | .hbm, ⟨3, _⟩ => ⟨S128, .f32⟩
  | .hbm, ⟨4, _⟩ => ⟨S128, .f32⟩
  | .hbm, ⟨5, _⟩ => ⟨S4x65536x128, .f32⟩
  | .hbm, ⟨6, _⟩ => ⟨S4x196608x1, .i32⟩
  | .hbm, ⟨7, _⟩ => ⟨S_, .i32⟩
  | .hbm, ⟨8, _⟩ => ⟨S4x196608x1, .i32⟩
  | .hbm, ⟨9, _⟩ => ⟨S4x196608x1, .i1⟩
  | .hbm, ⟨10, _⟩ => ⟨S_, .i32⟩
  | .hbm, ⟨11, _⟩ => ⟨S4x196608x1, .i32⟩
  | .hbm, ⟨12, _⟩ => ⟨S4x196608x1, .i32⟩
  | .hbm, ⟨13, _⟩ => ⟨S4x196608x1, .i32⟩
  | .hbm, ⟨14, _⟩ => ⟨S1, .i32⟩
  | .hbm, ⟨15, _⟩ => ⟨S_, .i32⟩
  | .hbm, ⟨16, _⟩ => ⟨S4x196608x1, .i32⟩
  | .hbm, ⟨17, _⟩ => ⟨S4x196608x1, .i1⟩
  | .hbm, ⟨18, _⟩ => ⟨S1x1x1, .i32⟩
  | .hbm, ⟨19, _⟩ => ⟨S4x196608x1, .i32⟩
  | .hbm, ⟨20, _⟩ => ⟨S4x196608x1, .i1⟩
  | .hbm, ⟨21, _⟩ => ⟨S4x196608x1, .i1⟩
  | .hbm, ⟨22, _⟩ => ⟨S_, .i1⟩
  | .hbm, ⟨23, _⟩ => ⟨S4x196608, .i1⟩
  | .hbm, ⟨24, _⟩ => ⟨S4x196608x128, .f32⟩
  | .hbm, ⟨25, _⟩ => ⟨S4x196608x128, .i1⟩
  | .hbm, ⟨26, _⟩ => ⟨S_, .f32⟩
  | .hbm, ⟨27, _⟩ => ⟨S4x196608x128, .f32⟩
  | .hbm, ⟨28, _⟩ => ⟨S4x196608x128, .f32⟩
  | .hbm, ⟨29, _⟩ => ⟨S4x65536x3x128, .f32⟩
  | .hbm, ⟨30, _⟩ => ⟨S_, .f32⟩
  | .hbm, ⟨31, _⟩ => ⟨S4x65536x128, .f32⟩
  | .hbm, ⟨32, _⟩ => ⟨S4x65536x128, .f32⟩
  | .hbm, ⟨33, _⟩ => ⟨S_, .f32⟩
  | .hbm, ⟨34, _⟩ => ⟨S4x65536x128, .f32⟩
  | .hbm, ⟨35, _⟩ => ⟨S4x65536x128, .f32⟩
  | .hbm, ⟨36, _⟩ => ⟨S4x65536x128, .bf16⟩
  | .hbm, ⟨37, _⟩ => ⟨S_, .f32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .f32⟩
  | .hbm, ⟨42, _⟩ => ⟨S128x128, .bf16⟩
  | .hbm, ⟨43, _⟩ => ⟨S4x65536x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S_, .i32⟩
  | .hbm, ⟨50, _⟩ => ⟨S_, .f32⟩
  | .hbm, ⟨51, _⟩ => ⟨S128, .f32⟩
  | .hbm, ⟨52, _⟩ => ⟨S1x1x128, .f32⟩
  | .hbm, ⟨53, _⟩ => ⟨S_, .f32⟩
  | .hbm, ⟨54, _⟩ => ⟨S1x1x128, .f32⟩
  | .hbm, ⟨55, _⟩ => ⟨S1x1x128, .f32⟩
  | .hbm, ⟨56, _⟩ => ⟨S4x65536x128, .f32⟩
  | .hbm, ⟨57, _⟩ => ⟨S4x65536x128, .f32⟩
  | .hbm, ⟨58, _⟩ => ⟨S4x65536x128, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S4x65536x128, .f32⟩
  | .hbm, ⟨73, _⟩ => ⟨S4x128x65536, .f32⟩
  | .local _ .vmem, ⟨0, _⟩ => ⟨S1x8192x128, .bf16⟩
  | .local _ .vmem, ⟨1, _⟩ => ⟨S1x8192x128, .bf16⟩
  | .local _ .vmem, ⟨2, _⟩ => ⟨S128x128, .bf16⟩
  | .local _ .vmem, ⟨3, _⟩ => ⟨S1x8192x128, .f32⟩
  | .local _ .vmem, ⟨4, _⟩ => ⟨S1x8192x128, .f32⟩
  | .local _ .vmem, ⟨5, _⟩ => ⟨S1x8192x128, .f32⟩
  | .local _ .vmem, ⟨6, _⟩ => ⟨S1x8192x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S1x8192x128, .f32⟩
  | .local _ .vmem, ⟨12, _⟩ => ⟨S1x8192x128, .f32⟩
  | _, _ => ⟨S4x128x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_3 : Ref sig .tc := ⟨.hbm, 44, rfl⟩
abbrev main_v14 : Ref sig .tc := ⟨.hbm, 45, rfl⟩
abbrev main_cst_4 : Ref sig .tc := ⟨.hbm, 46, rfl⟩
abbrev main_v15 : Ref sig .tc := ⟨.hbm, 47, rfl⟩
abbrev main_v16 : Ref sig .tc := ⟨.hbm, 48, rfl⟩
abbrev main_c : Ref sig .tc := ⟨.hbm, 49, rfl⟩
abbrev main_call1_cst : Ref sig .tc := ⟨.hbm, 50, rfl⟩
abbrev main_call1_v0 : Ref sig .tc := ⟨.hbm, 51, rfl⟩
abbrev main_call1_v1 : Ref sig .tc := ⟨.hbm, 52, rfl⟩
abbrev main_call1_cst_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_cst_1 : Ref sig .tc := ⟨.hbm, 60, rfl⟩
abbrev main_call1_v8 : Ref sig .tc := ⟨.hbm, 61, rfl⟩
abbrev main_call1_cst_2 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_cst_3 : Ref sig .tc := ⟨.hbm, 66, rfl⟩
abbrev main_call1_v12 : Ref sig .tc := ⟨.hbm, 67, rfl⟩
abbrev main_call1_cst_4 : Ref sig .tc := ⟨.hbm, 68, rfl⟩
abbrev main_call1_call0_v0 : Ref sig .tc := ⟨.hbm, 69, rfl⟩
abbrev main_call1_call0_v1 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x8192x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S4x128x65536_S4x65536x128_0_2_1 : S4x128x65536.Transposes [0, 2, 1] S4x65536x128
  shapeCasts_S4x65536x3_S4x196608x1 : S4x65536x3.ShapeCasts S4x196608x1
  bcast_S_S4x196608x1 : S_.BroadcastsInDim S4x196608x1 (![] : Fin 0 → Fin S4x196608x1.rank)
  bcast_S1_S1x1x1_2 : S1.BroadcastsInDim S1x1x1 (![2] : Fin 1 → Fin S1x1x1.rank)
  bcast_S1x1x1_S4x196608x1_0_1_2 : S1x1x1.BroadcastsInDim S4x196608x1 (![0, 1, 2] : Fin 3 → Fin S4x196608x1.rank)
  reducesTo_S4x196608x1_S4x196608_d2 : S4x196608x1.ReducesTo [2] S4x196608
  h_S_ : 0 < S_.numel
  bcast_S4x196608_S4x196608x128_0_1 : S4x196608.BroadcastsInDim S4x196608x128 (![0, 1] : Fin 2 → Fin S4x196608x128.rank)
  bcast_S_S4x196608x128 : S_.BroadcastsInDim S4x196608x128 (![] : Fin 0 → Fin S4x196608x128.rank)
  shapeCasts_S4x196608x128_S4x65536x3x128 : S4x196608x128.ShapeCasts S4x65536x3x128
  reducesTo_S4x65536x3x128_S4x65536x128_d2 : S4x65536x3x128.ReducesTo [2] S4x65536x128
  bcast_S_S4x65536x128 : S_.BroadcastsInDim S4x65536x128 (![] : Fin 0 → Fin S4x65536x128.rank)
  bitsLt_bf16_f32 : FTy.bits .bf16 < FTy.bits .f32
  reducesTo_S128x128x16_S128x128_d2 : S128x128x16.ReducesTo [2] S128x128
  bcast_S_S128x128 : S_.BroadcastsInDim S128x128 (![] : Fin 0 → Fin S128x128.rank)
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S8192x128_S1x8192x128 : S8192x128.ShapeCasts S1x8192x128
  reducesTo_S4x65536x128_S128_d0_1 : S4x65536x128.ReducesTo [0, 1] S128
  bcast_S_S128 : S_.BroadcastsInDim S128 (![] : Fin 0 → Fin S128.rank)
  bcast_S128_S1x1x128_2 : S128.BroadcastsInDim S1x1x128 (![2] : Fin 1 → Fin S1x1x128.rank)
  bcast_S_S1x1x128 : S_.BroadcastsInDim S1x1x128 (![] : Fin 0 → Fin S1x1x128.rank)
  bcast_S1x1x128_S4x65536x128_0_1_2 : S1x1x128.BroadcastsInDim S4x65536x128 (![0, 1, 2] : Fin 3 → Fin S4x65536x128.rank)
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S8192x128 : S1x128.Broadcasts S8192x128
  transposes_S4x65536x128_S4x128x65536_0_2_1 : S4x65536x128.Transposes [0, 2, 1] S4x128x65536
  gather_S4x65536x128_S4x196608x1_S4x196608x128_2_1_0_0_1_2_11128_wf : GatherDims.WF S4x65536x128 S4x196608x1 S4x196608x128 [2] [1] [0] [1] [0] 2 ![1, 1, 128]
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S4x65536x128.size a
  hwx0_0 : ∀ i : grid0.Coords, EltTy.bits .bf16 = 32 ∨ (Rect.block (s := S4x65536x128) S1x8192x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x128.size a ≤ S4x65536x128.size a
  hwx0_2 : ∀ i : grid0.Coords, EltTy.bits .f32 = 32 ∨ (Rect.block (s := S4x65536x128) S1x8192x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x128.size a ≤ S4x65536x128.size a
  hwx1_0 : ∀ i : grid1.Coords, EltTy.bits .f32 = 32 ∨ (Rect.block (s := S4x65536x128) S1x8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8192x128.size a ≤ S4x65536x128.size a
  hwx1_5 : ∀ i : grid1.Coords, EltTy.bits .f32 = 32 ∨ (Rect.block (s := S4x65536x128) S1x8192x128.size (cc1_transform_5 i) (hinb1_5 i)).WholeWords (EltTy.packing .f32)

variable [Facts₀]

def gather_S4x65536x128_S4x196608x1_S4x196608x128_2_1_0_0_1_2_11128 : GatherDims S4x65536x128 S4x196608x1 S4x196608x128 where
  offsetDims := [2]
  collapsedSliceDims := [1]
  operandBatchingDims := [0]
  startIndicesBatchingDims := [0]
  startIndexMap := [1]
  indexVectorDim := 2
  sliceSizes := ![1, 1, 128]
  wf := gather_S4x65536x128_S4x196608x1_S4x196608x128_2_1_0_0_1_2_11128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v8) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S1x8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x8192x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x128x65536 : Shape := ⟨3, ![4, 128, 65536]⟩
abbrev S4x65536x3 : Shape := ⟨3, ![4, 65536, 3]⟩
abbrev S128x128x16 : Shape := ⟨3, ![128, 128, 16]⟩
abbrev S128 : Shape := ⟨1, ![128]⟩
abbrev S4x65536x128 : Shape := ⟨3, ![4, 65536, 128]⟩
abbrev S4x196608x1 : Shape := ⟨3, ![4, 196608, 1]⟩
abbrev S_ : Shape := ⟨0, ![]⟩
abbrev S1 : Shape := ⟨1, ![1]⟩
abbrev S1x1x1 : Shape := ⟨3, ![1, 1, 1]⟩
abbrev S4x196608 : Shape := ⟨2, ![4, 196608]⟩
abbrev S4x196608x128 : Shape := ⟨3, ![4, 196608, 128]⟩
abbrev S4x65536x3x128 : Shape := ⟨4, ![4, 65536, 3, 128]⟩
abbrev S128x128 : Shape := ⟨2, ![128, 128]⟩
abbrev S1x1x128 : Shape := ⟨3, ![1, 1, 128]⟩

abbrev nBuf : Space → Nat
  | .hbm => 90
  | .vmem => 0
  | .smem => 0
  | _ => 0

abbrev bufTy : (tb : Table) → Fin (tcTables nBuf tb) → BufTy
  | .hbm, ⟨0, _⟩ => ⟨S4x128x65536, .f32⟩
  | .hbm, ⟨1, _⟩ => ⟨S4x65536x3, .i32⟩
  | .hbm, ⟨2, _⟩ => ⟨S128x128x16, .f32⟩
  | .hbm, ⟨3, _⟩ => ⟨S128, .f32⟩
  | .hbm, ⟨4, _⟩ => ⟨S128, .f32⟩
  | .hbm, ⟨5, _⟩ => ⟨S4x65536x128, .f32⟩
  | .hbm, ⟨6, _⟩ => ⟨S4x196608x1, .i32⟩
  | .hbm, ⟨7, _⟩ => ⟨S_, .i32⟩
  | .hbm, ⟨8, _⟩ => ⟨S4x196608x1, .i32⟩
  | .hbm, ⟨9, _⟩ => ⟨S4x196608x1, .i1⟩
  | .hbm, ⟨10, _⟩ => ⟨S_, .i32⟩
  | .hbm, ⟨11, _⟩ => ⟨S4x196608x1, .i32⟩
  | .hbm, ⟨12, _⟩ => ⟨S4x196608x1, .i32⟩
  | .hbm, ⟨13, _⟩ => ⟨S4x196608x1, .i32⟩
  | .hbm, ⟨14, _⟩ => ⟨S1, .i32⟩
  | .hbm, ⟨15, _⟩ => ⟨S_, .i32⟩
  | .hbm, ⟨16, _⟩ => ⟨S4x196608x1, .i32⟩
  | .hbm, ⟨17, _⟩ => ⟨S4x196608x1, .i1⟩
  | .hbm, ⟨18, _⟩ => ⟨S1x1x1, .i32⟩
  | .hbm, ⟨19, _⟩ => ⟨S4x196608x1, .i32⟩
  | .hbm, ⟨20, _⟩ => ⟨S4x196608x1, .i1⟩
  | .hbm, ⟨21, _⟩ => ⟨S4x196608x1, .i1⟩
  | .hbm, ⟨22, _⟩ => ⟨S_, .i1⟩
  | .hbm, ⟨23, _⟩ => ⟨S4x196608, .i1⟩
  | .hbm, ⟨24, _⟩ => ⟨S4x196608x128, .f32⟩
  | .hbm, ⟨25, _⟩ => ⟨S4x196608x128, .i1⟩
  | .hbm, ⟨26, _⟩ => ⟨S_, .f32⟩
  | .hbm, ⟨27, _⟩ => ⟨S4x196608x128, .f32⟩
  | .hbm, ⟨28, _⟩ => ⟨S4x196608x128, .f32⟩
  | .hbm, ⟨29, _⟩ => ⟨S4x65536x3x128, .f32⟩
  | .hbm, ⟨30, _⟩ => ⟨S_, .f32⟩
  | .hbm, ⟨31, _⟩ => ⟨S4x65536x128, .f32⟩
  | .hbm, ⟨32, _⟩ => ⟨S4x65536x128, .f32⟩
  | .hbm, ⟨33, _⟩ => ⟨S_, .f32⟩
  | .hbm, ⟨34, _⟩ => ⟨S4x65536x128, .f32⟩
  | .hbm, ⟨35, _⟩ => ⟨S4x65536x128, .f32⟩
  | .hbm, ⟨36, _⟩ => ⟨S_, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S4x65536x128, .f32⟩
  | .hbm, ⟨42, _⟩ => ⟨S_, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S_, .i32⟩
  | .hbm, ⟨48, _⟩ => ⟨S_, .f32⟩
  | .hbm, ⟨49, _⟩ => ⟨S128, .f32⟩
  | .hbm, ⟨50, _⟩ => ⟨S1x1x128, .f32⟩
  | .hbm, ⟨51, _⟩ => ⟨S_, .f32⟩
  | .hbm, ⟨52, _⟩ => ⟨S1x1x128, .f32⟩
  | .hbm, ⟨53, _⟩ => ⟨S1x1x128, .f32⟩
  | .hbm, ⟨54, _⟩ => ⟨S4x65536x128, .f32⟩
  | .hbm, ⟨55, _⟩ => ⟨S4x65536x128, .f32⟩
  | .hbm, ⟨56, _⟩ => ⟨S4x65536x128, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x1x128, .f32⟩
  | .hbm, ⟨71, _⟩ => ⟨S4x65536x128, .f32⟩
  | .hbm, ⟨72, _⟩ => ⟨S4x65536x128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S1x1x128, .f32⟩
  | .hbm, ⟨78, _⟩ => ⟨S4x65536x128, .f32⟩
  | .hbm, ⟨79, _⟩ => ⟨S4x65536x128, .f32⟩
  | .hbm, ⟨80, _⟩ => ⟨S1x1x128, .f32⟩
  | .hbm, ⟨81, _⟩ => ⟨S4x65536x128, .f32⟩
  | .hbm, ⟨82, _⟩ => ⟨S4x65536x128, .f32⟩
  | .hbm, ⟨83, _⟩ => ⟨S1x1x128, .f32⟩
  | .hbm, ⟨84, _⟩ => ⟨S4x65536x128, .f32⟩
  | .hbm, ⟨85, _⟩ => ⟨S4x65536x128, .f32⟩
  | .hbm, ⟨86, _⟩ => ⟨S_, .f32⟩
  | .hbm, ⟨87, _⟩ => ⟨S4x65536x128, .f32⟩
  | .hbm, ⟨88, _⟩ => ⟨S4x65536x128, .f32⟩
  | .hbm, ⟨89, _⟩ => ⟨S4x128x65536, .f32⟩
  | _, _ => ⟨S4x128x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_cst_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_3 : Ref sig .tc := ⟨.hbm, 42, rfl⟩
abbrev main_v12 : Ref sig .tc := ⟨.hbm, 43, rfl⟩
abbrev main_cst_4 : Ref sig .tc := ⟨.hbm, 44, rfl⟩
abbrev main_v13 : Ref sig .tc := ⟨.hbm, 45, rfl⟩
abbrev main_v14 : Ref sig .tc := ⟨.hbm, 46, rfl⟩
abbrev main_c : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_cst_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_cst_1 : Ref sig .tc := ⟨.hbm, 58, rfl⟩
abbrev main_call1_v8 : Ref sig .tc := ⟨.hbm, 59, rfl⟩
abbrev main_call1_cst_2 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_cst_3 : Ref sig .tc := ⟨.hbm, 64, rfl⟩
abbrev main_call1_v12 : Ref sig .tc := ⟨.hbm, 65, rfl⟩
abbrev main_call1_cst_4 : Ref sig .tc := ⟨.hbm, 66, rfl⟩
abbrev main_call1_call0_v0 : Ref sig .tc := ⟨.hbm, 67, rfl⟩
abbrev main_call1_call0_v1 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_cst_5 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_call2_cst : Ref sig .tc := ⟨.hbm, 86, rfl⟩
abbrev main_call2_v0 : Ref sig .tc := ⟨.hbm, 87, rfl⟩
abbrev main_v31 : Ref sig .tc := ⟨.hbm, 88, rfl⟩
abbrev main_v32 : Ref sig .tc := ⟨.hbm, 89, rfl⟩

abbrev nD : Nat := 1
abbrev τ : Topo := Topo.v7x

variable {F : FTy → Type} [FloatOps F]

class Facts₀ : Prop where
  transposes_S4x128x65536_S4x65536x128_0_2_1 : S4x128x65536.Transposes [0, 2, 1] S4x65536x128
  shapeCasts_S4x65536x3_S4x196608x1 : S4x65536x3.ShapeCasts S4x196608x1
  bcast_S_S4x196608x1 : S_.BroadcastsInDim S4x196608x1 (![] : Fin 0 → Fin S4x196608x1.rank)
  bcast_S1_S1x1x1_2 : S1.BroadcastsInDim S1x1x1 (![2] : Fin 1 → Fin S1x1x1.rank)
  bcast_S1x1x1_S4x196608x1_0_1_2 : S1x1x1.BroadcastsInDim S4x196608x1 (![0, 1, 2] : Fin 3 → Fin S4x196608x1.rank)
  reducesTo_S4x196608x1_S4x196608_d2 : S4x196608x1.ReducesTo [2] S4x196608
  h_S_ : 0 < S_.numel
  bcast_S4x196608_S4x196608x128_0_1 : S4x196608.BroadcastsInDim S4x196608x128 (![0, 1] : Fin 2 → Fin S4x196608x128.rank)
  bcast_S_S4x196608x128 : S_.BroadcastsInDim S4x196608x128 (![] : Fin 0 → Fin S4x196608x128.rank)
  shapeCasts_S4x196608x128_S4x65536x3x128 : S4x196608x128.ShapeCasts S4x65536x3x128
  reducesTo_S4x65536x3x128_S4x65536x128_d2 : S4x65536x3x128.ReducesTo [2] S4x65536x128
  bcast_S_S4x65536x128 : S_.BroadcastsInDim S4x65536x128 (![] : Fin 0 → Fin S4x65536x128.rank)
  reducesTo_S128x128x16_S128x128_d2 : S128x128x16.ReducesTo [2] S128x128
  bcast_S_S128x128 : S_.BroadcastsInDim S128x128 (![] : Fin 0 → Fin S128x128.rank)
  reducesTo_S4x65536x128_S128_d0_1 : S4x65536x128.ReducesTo [0, 1] S128
  bcast_S_S128 : S_.BroadcastsInDim S128 (![] : Fin 0 → Fin S128.rank)
  bcast_S128_S1x1x128_2 : S128.BroadcastsInDim S1x1x128 (![2] : Fin 1 → Fin S1x1x128.rank)
  bcast_S_S1x1x128 : S_.BroadcastsInDim S1x1x128 (![] : Fin 0 → Fin S1x1x128.rank)
  bcast_S1x1x128_S4x65536x128_0_1_2 : S1x1x128.BroadcastsInDim S4x65536x128 (![0, 1, 2] : Fin 3 → Fin S4x65536x128.rank)
  transposes_S4x65536x128_S4x128x65536_0_2_1 : S4x65536x128.Transposes [0, 2, 1] S4x128x65536
  gather_S4x65536x128_S4x196608x1_S4x196608x128_2_1_0_0_1_2_11128_wf : GatherDims.WF S4x65536x128 S4x196608x1 S4x196608x128 [2] [1] [0] [1] [0] 2 ![1, 1, 128]
  dot_S4x65536x128_S128x128_S4x65536x128_2_0_01_1_n_n_wf : DotDims.WF S4x65536x128 S128x128 S4x65536x128 [2] [0] [0, 1] [1] [] []

variable [Facts₀]

def gather_S4x65536x128_S4x196608x1_S4x196608x128_2_1_0_0_1_2_11128 : GatherDims S4x65536x128 S4x196608x1 S4x196608x128 where
  offsetDims := [2]
  collapsedSliceDims := [1]
  operandBatchingDims := [0]
  startIndicesBatchingDims := [0]
  startIndexMap := [1]
  indexVectorDim := 2
  sliceSizes := ![1, 1, 128]
  wf := gather_S4x65536x128_S4x196608x1_S4x196608x128_2_1_0_0_1_2_11128_wf
def dot_S4x65536x128_S128x128_S4x65536x128_2_0_01_1_n_n : DotDims S4x65536x128 S128x128 S4x65536x128 where
  lhsContracting := [2]
  rhsContracting := [0]
  lhsNonContracting := [0, 1]
  rhsNonContracting := [1]
  lhsBatch := []
  rhsBatch := []
  wf := dot_S4x65536x128_S128x128_S4x65536x128_2_0_01_1_n_n_wf

class Facts : Prop extends Facts₀ where

variable [Facts]
-- ==== Proof.Spec.lean ====
/-
  The two array functions both programs compute between their shared host stretches.

  Features are laid out [batch 4, node 65536, channel 128]. The feature product sends a feature array x and a
  128 × 128 weight matrix w to  y[b, n, j] = ∑ k, x[b, n, k] · w[k, j]  (each node's channel row times the matrix).
  The normalisation sends a feature array x and four per-channel rows (scale g, shift be, mean mu, variance vr) to
  y[b, n, j] = max (((x[b, n, j] − mu[j]) · (vr[j] + ε)^(−1/2)) · g[j] + be[j]) 0,  with ε the f32 word 0x3727C5AC,
  all on the extended reals, the operations in exactly this order.
-/
import Idealize.ShloMosaic.Lib.ValueIdx
import Idealize.ShloMosaic.PureOps.Ideal.Laws

noncomputable section

namespace Cert.Spec

open Idealize.ShloMosaic Idealize.ShloMosaic.ValueIdx

/-- [batch, node, channel]. -/
abbrev SFeat : Shape := ⟨3, ![4, 65536, 128]⟩
/-- [channel in, channel out]. -/
abbrev SWt : Shape := ⟨2, ![128, 128]⟩
/-- [channel]. -/
abbrev SCh : Shape := ⟨1, ![128]⟩

/-- One entry of the feature product: row (b, n) of `x` against column `j` of `w`. -/
def prodAt (x : SFeat.Idx → EReal) (w : SWt.Idx → EReal) (b : Fin 4) (n : Fin 65536) (j : Fin 128) : EReal :=
  ∑ k : Fin 128, x (ix3 b n k) * w (ix2 k j)

/-- The feature product as an array. -/
def prodArr (x : SFeat.Idx → EReal) (w : SWt.Idx → EReal) : SFeat.Idx → EReal :=
  fun i => prodAt x w (i 0) (i 1) (i 2)

/-- One entry of the normalisation followed by the maximum with zero. -/
def normAt (v : EReal) (g be mu vr : EReal) : EReal :=
  max ((v - mu) * Ideal.rsqrt (vr + Ideal.ofBits .f32 0x3727C5AC#32) * g + be) 0

/-- The normalisation as an array: entry (b, n, j) uses channel `j`'s scale, shift, mean and variance. -/
def normArr (x : SFeat.Idx → EReal) (g be mu vr : SCh.Idx → EReal) : SFeat.Idx → EReal :=
  fun i => normAt (x i) (g (ix1 (i 2))) (be (ix1 (i 2))) (mu (ix1 (i 2))) (vr (ix1 (i 2)))

theorem prodArr_apply (x : SFeat.Idx → EReal) (w : SWt.Idx → EReal) (b : Fin 4) (n : Fin 65536) (j : Fin 128) :
    prodArr x w (ix3 b n j) = prodAt x w b n j := rfl

theorem normArr_apply (x : SFeat.Idx → EReal) (g be mu vr : SCh.Idx → EReal) (b : Fin 4) (n : Fin 65536) (j : Fin 128) :
    normArr x g be mu vr (ix3 b n j) = normAt (x (ix3 b n j)) (g (ix1 j)) (be (ix1 j)) (mu (ix1 j)) (vr (ix1 j)) := rfl

end Cert.Spec

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.KRegion0.lean ====
/-
  The first kernel region (the tiled feature product) as one array function.

  The grid has 4 × 8 points; point (b, q) loads rows 8192·q … 8192·q + 8191 of batch b of the feature array and the
  whole weight matrix, multiplies them into a zero accumulator and writes the product to the same rows of the result.
  Entry (r, j) of a tile's product is ∑ k, tile[r, k] · w[k, j], so every entry (b, n, j) of the result array ends at
  ∑ k, x[b, n, k] · w[k, j]: the 32 tiles cover the array and each is the restriction of that one function.
-/
import proofs.«160927_j74062416053231_1_alg».proof.Proof.Gen.KernelIdeal.Frame
import proofs.«160927_j74062416053231_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«160927_j74062416053231_1_alg».proof.Proof.LibDense

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The all-zero offsets of a rank-3 rectangle, however the zeros are spelt. -/
theorem prod_zero_off3 : (![0, 0, 0] : Fin 3 → Nat) = fun _ => 0 := funext fun a => by fin_cases a <;> rfl

/-- The all-zero offsets of a rank-2 rectangle. -/
theorem prod_zero_off2 : (![0, 0] : Fin 2 → Nat) = fun _ => 0 := funext fun a => by fin_cases a <;> rfl

/-- The tile product's dimension numbers are the rows-by-columns ones: the left operand contracted on its columns,
    the right on its rows, no batch axis. -/
theorem prod_dot_eq_plain : dot_S8192x128_S128x128_S8192x128_1_0_0_1_n_n = DotDims.plain 8192 128 128 := rfl

/-- Entry (u, r, j) of one tile's product: row `r` of the feature tile against column `j` of the weight matrix,
    ∑ k, tile[0, r, k] · w[k, j]. -/
theorem prod_tile_apply (x0 : Vec Ideal S1x8192x128 .bf16) (x1 : Vec Ideal S128x128 .bf16) (u : Fin 1) (r : Fin 8192)
    (j : Fin 128) :
    k0_pay1 x0 x1 (ix3 u r j) = ∑ k : Fin 128, x0 (ix3 (0 : Fin 1) r k) * x1 (ix2 k j) := by
  unfold k0_pay1
  rw [shapeCast_ab_1ab_apply]
  show FloatOps.matmul dot_S8192x128_S128x128_S8192x128_1_0_0_1_n_n none _ _
      (constant ⟨2, ![8192, 128]⟩ .f32 0x00000000#32) (ix2 r j) = _
  rw [prod_dot_eq_plain, Cert.LibDense.matmul_plain_zero_apply]
  refine Finset.sum_congr rfl fun k _ => ?_
  rw [shapeCast_1ab_ab_apply, shapeCast_self]

/-- One tile's product read against the whole arrays: if row `r` of the feature tile is row (i 0, i 1) of the feature
    array `X` and column `j` of the tile's matrix is column `i 2` of the weight matrix `W`, entry (u, r, j) of the
    tile's product is entry `i` of the feature product of `X` and `W`. -/
theorem prod_tile_eq_prodArr (X : Cert.Spec.SFeat.Idx → EReal) (W : Cert.Spec.SWt.Idx → EReal)
    (x0 : Vec Ideal S1x8192x128 .bf16) (x1 : Vec Ideal S128x128 .bf16) (u : Fin 1) (r : Fin 8192) (j : Fin 128)
    (i : Cert.Spec.SFeat.Idx)
    (h0 : ∀ k : Fin 128, x0 (ix3 (0 : Fin 1) r k) = X (ix3 (i 0) (i 1) k))
    (h1 : ∀ k : Fin 128, x1 (ix2 k j) = W (ix2 k (i 2))) :
    k0_pay1 x0 x1 (ix3 u r j) = Cert.Spec.prodArr X W i := by
  rw [prod_tile_apply]
  show _ = ∑ k : Fin 128, X (ix3 (i 0) (i 1) k) * W (ix2 k (i 2))
  exact Finset.sum_congr rfl fun k _ => by rw [h0, h1]

/-- The three windows' block indices, decided over the 32 grid points: the feature window moves with the result
    window on the batch and row-tile axes and both stay at channel block 0; the weight window never moves; the result's
    batch index is below 4 and its row-tile index below 8. -/
theorem prod_index_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 2) = 0
    ∧ win0_1.index t (1 : Fin 2) = 0
    ∧ win0_2.index t (2 : Fin 3) = 0
    ∧ win0_2.index t (0 : Fin 3) < 4
    ∧ win0_2.index t (1 : Fin 3) < 8 :=
  (by decide +kernel : ∀ t : Fin grid0.N, _)

/-- Every (batch, row tile) pair is some grid point's result block. -/
theorem prod_index_onto : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

/-- What grid point `t` writes back is its block of the feature product of the two arrays the region was entered with:
    the tile's rows are the result block's rows of the feature array and its matrix is the whole weight matrix. -/
theorem prod_flushed_eq (c : Dev nD) (t : Fin cfg0.N) :
    (dat0 (F := Ideal) V c).flushed 2 t
      = ((cfg0.win 2).blk t).view.read (Elt Ideal) (Cert.Spec.prodArr (V c main_v8) (V c main_v12)) := by
  show (cfg0.win 2).cut (grid0.coords t) ((dat0 V c).after 2 t) = _
  rw [after0_2]
  unfold out0_2
  rw [View.canon_unit_zero prod_zero_off3]
  simp only [View.ld_unit_zero (S := S1x8192x128) prod_zero_off3, View.ld_unit_zero (S := S128x128) prod_zero_off2]
  obtain ⟨e0, e1, e2, e3, e4, e5, -, -⟩ := prod_index_facts t
  funext y
  show k0_pay1 (iblk0 V c 0 t) (iblk0 V c 1 t) y
    = Cert.Spec.prodArr (V c main_v8) (V c main_v12) (((cfg0.win 2).blk t).view.emb y)
  have hy0 : (y 0).val < 1 := (y 0).isLt
  refine (congrArg (k0_pay1 (iblk0 V c 0 t) (iblk0 V c 1 t)) (eq_ix3 (n0 := 1) (n1 := 8192) (n2 := 128) y)).trans ?_
  refine prod_tile_eq_prodArr (V c main_v8) (V c main_v12) (iblk0 V c 0 t) (iblk0 V c 1 t) (y 0) (y 1) (y 2)
    (((cfg0.win 2).blk t).view.emb y) (fun k => ?_) (fun k => ?_)
  · show V c main_v8 (((cfg0.win 0).blk t).view.emb (ix3 (0 : Fin 1) (y 1) k))
      = V c main_v8 (ix3 ((((cfg0.win 2).blk t).view.emb y) 0) ((((cfg0.win 2).blk t).view.emb y) 1) k)
    refine congrArg (V c main_v8) (funext fun a => Fin.ext ?_)
    match a with
    | ⟨0, _⟩ =>
      show win0_0.index t (0 : Fin 3) * 1 + 1 * 0 = win0_2.index t (0 : Fin 3) * 1 + 1 * (y 0).val
      omega
    | ⟨1, _⟩ =>
      show win0_0.index t (1 : Fin 3) * 8192 + 1 * (y 1).val = win0_2.index t (1 : Fin 3) * 8192 + 1 * (y 1).val
      omega
    | ⟨2, _⟩ =>
      show win0_0.index t (2 : Fin 3) * 128 + 1 * k.val = k.val
      omega
  · show V c main_v12 (((cfg0.win 1).blk t).view.emb (ix2 k (y 2)))
      = V c main_v12 (ix2 k ((((cfg0.win 2).blk t).view.emb y) 2))
    refine congrArg (V c main_v12) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (y 2).val = win0_2.index t (2 : Fin 3) * 128 + 1 * (y 2).val
      omega

/-- An index of the result array is in grid point `t`'s block iff each coordinate is in the block's range on its axis. -/
theorem prod_mem_blk (t : Fin cfg0.N) (i : S4x65536x128.Idx) :
    i ∈ ((cfg0.win 2).blk t).view.set ↔ ∀ a : Fin 3, win0_2.index t a * S1x8192x128.size a ≤ (i a).val
      ∧ (i a).val < win0_2.index t a * S1x8192x128.size a + S1x8192x128.size a := by
  show i ∈ ((View.whole main_v13).slice (win0_2.rect t)).set ↔ _
  rw [View.set_slice_whole, Rect.mem_set_unit]
  exact Iff.rfl

/-- The 32 result blocks cover the result array: entry (b, n, j) lies in the block of batch `b` and row tile `n / 8192`. -/
theorem prod_cover (i : S4x65536x128.Idx) :
    ∃ t : Fin cfg0.N, (cfg0.win 2).flush t = true ∧ i ∈ ((cfg0.win 2).blk t).view.set := by
  have hi0 : (i 0).val < 4 := (i 0).isLt
  have hi1 : (i 1).val < 65536 := (i 1).isLt
  have hi2 : (i 2).val < 128 := (i 2).isLt
  obtain ⟨t, ht⟩ := prod_index_onto ⟨(i 0).val, hi0⟩ ⟨(i 1).val / 8192, by omega⟩
  have q0 : win0_2.index t (0 : Fin 3) = (i 0).val := congrFun ht 0
  have q1 : win0_2.index t (1 : Fin 3) = (i 1).val / 8192 := congrFun ht 1
  have q2 : win0_2.index t (2 : Fin 3) = 0 := congrFun ht 2
  refine ⟨t, flush0_2 t, ?_⟩
  rw [prod_mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 8192 ≤ (i 1).val ∧ (i 1).val < win0_2.index t (1 : Fin 3) * 8192 + 8192
    omega
  | ⟨2, _⟩ =>
    show win0_2.index t (2 : Fin 3) * 128 ≤ (i 2).val ∧ (i 2).val < win0_2.index t (2 : Fin 3) * 128 + 128
    omega

/-- After the first region the product array holds the feature product of the two arrays the region was entered with. -/
theorem arr0 (c : Dev nD) :
    (dat0 (F := Ideal) V c).arrAt 2 cfg0.N = Cert.Spec.prodArr (V c main_v8) (V c main_v12) := by
  exact (dat0 V c).arrAt_eq_of_cover 2 (Cert.Spec.prodArr (V c main_v8) (V c main_v12))
    (fun t _ => prod_flushed_eq V c t) prod_cover

end Cert.KernelIdeal.Hand

end
-- ==== Proof.KRegion1.lean ====
/-
  The second kernel region (normalisation and maximum with zero) as one array function.

  The grid has 4 × 8 points; point (b, q) loads rows 8192·q … 8192·q + 8191 of batch b of the feature array and the
  four per-channel rows (scale, shift, mean, variance) whole, and writes to the same rows of the result
  max (((x − mean) · (variance + ε)^(−1/2)) · scale + shift) 0, each per-channel row laid along the tile's rows.
  The 32 tiles cover the array and each is the restriction of that one function of the array index.
-/
import proofs.«160927_j74062416053231_1_alg».proof.Proof.Gen.KernelIdeal.Frame
import proofs.«160927_j74062416053231_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- A per-channel row laid along the rows of the tile reads, at row r and channel j, the row's entry at j. -/
theorem row_apply (v : Vec Ideal S128 .f32) (r : Fin 8192) (j : Fin 128) :
    broadcastTo S8192x128 (shapeCast S1x128 v shapeCasts_S128_S1x128) broadcasts_S1x128_S8192x128 (ix2 r j) = v (ix1 j) :=
  (broadcastTo_1b_ab_apply _ broadcasts_S1x128_S8192x128 r j).trans (shapeCast_a_1a_apply v shapeCasts_S128_S1x128 (0 : Fin 1) j)

/-- The body's value at row r, channel j of the tile: the normalisation of the tile's entry there with channel j's
    scale, shift, mean and variance. -/
theorem pay_apply (x0 : Vec Ideal S1x8192x128 .f32) (x1 x2 x3 x4 : Vec Ideal S128 .f32) (r : Fin 8192) (j : Fin 128) :
    k1_pay1 (F := Ideal) x0 x1 x2 x3 x4 (ix3 (0 : Fin 1) r j)
      = Cert.Spec.normAt (x0 (ix3 (0 : Fin 1) r j)) (x1 (ix1 j)) (x2 (ix1 j)) (x3 (ix1 j)) (x4 (ix1 j)) := by
  unfold k1_pay1
  refine (shapeCast_ab_1ab_apply _ shapeCasts_S8192x128_S1x8192x128 (0 : Fin 1) r j).trans ?_
  have e0 : shapeCast S8192x128 x0 shapeCasts_S1x8192x128_S8192x128 (ix2 r j) = x0 (ix3 (0 : Fin 1) r j) :=
    shapeCast_1ab_ab_apply x0 shapeCasts_S1x8192x128_S8192x128 r j
  have e3 : broadcastTo S8192x128 (shapeCast S1x128 (shapeCast S128 x3 shapeCasts_S128_S128) shapeCasts_S128_S1x128)
      broadcasts_S1x128_S8192x128 (ix2 r j) = x3 (ix1 j) :=
    (row_apply _ r j).trans (congrFun (shapeCast_self x3 shapeCasts_S128_S128) (ix1 j))
  have e4 : broadcastTo S8192x128 (shapeCast S1x128 (rsqrt (addf (shapeCast S128 x4 shapeCasts_S128_S128)
      (broadcast S128 (FloatOps.ofBits (F := Ideal) FTy.f32 0x3727C5AC#32)))) shapeCasts_S128_S1x128) broadcasts_S1x128_S8192x128 (ix2 r j)
      = Ideal.rsqrt (x4 (ix1 j) + Ideal.ofBits .f32 0x3727C5AC#32) :=
    (row_apply _ r j).trans (congrArg (fun z => Ideal.rsqrt (z + Ideal.ofBits .f32 0x3727C5AC#32))
      (congrFun (shapeCast_self x4 shapeCasts_S128_S128) (ix1 j)))
  show max ((shapeCast S8192x128 x0 shapeCasts_S1x8192x128_S8192x128 (ix2 r j)
      - broadcastTo S8192x128 (shapeCast S1x128 (shapeCast S128 x3 shapeCasts_S128_S128) shapeCasts_S128_S1x128) broadcasts_S1x128_S8192x128 (ix2 r j))
      * broadcastTo S8192x128 (shapeCast S1x128 (rsqrt (addf (shapeCast S128 x4 shapeCasts_S128_S128)
          (broadcast S128 (FloatOps.ofBits (F := Ideal) FTy.f32 0x3727C5AC#32)))) shapeCasts_S128_S1x128) broadcasts_S1x128_S8192x128 (ix2 r j)
      * broadcastTo S8192x128 (shapeCast S1x128 x1 shapeCasts_S128_S1x128) broadcasts_S1x128_S8192x128 (ix2 r j)
      + broadcastTo S8192x128 (shapeCast S1x128 x2 shapeCasts_S128_S1x128) broadcasts_S1x128_S8192x128 (ix2 r j))
      (Ideal.ofBits .f32 0x00000000#32) = _
  rw [e0, e3, e4, row_apply x1 r j, row_apply x2 r j, Ideal.ofBits_zero_f32]
  rfl

/-- The tile's loads and its one store start at the tile's origin. -/
theorem origin3 : (![0, 0, 0] : Fin 3 → Nat) = fun _ => 0 := funext fun a => by fin_cases a <;> rfl
/-- A per-channel row's load starts at the row's origin. -/
theorem origin1 : (![0] : Fin 1 → Nat) = fun _ => 0 := funext fun a => by fin_cases a <;> rfl

/-- The block indices over the grid: the feature tile read at a point is the result tile written there, its batch
    below 4, its row block below 8, its channel block 0; each per-channel row is read whole. -/
theorem block_indices : ∀ t : Fin cfg1.N, win1_0.index t (0 : Fin 3) = win1_5.index t (0 : Fin 3)
    ∧ win1_0.index t (1 : Fin 3) = win1_5.index t (1 : Fin 3)
    ∧ win1_0.index t (2 : Fin 3) = win1_5.index t (2 : Fin 3)
    ∧ win1_1.index t (0 : Fin 1) = 0 ∧ win1_2.index t (0 : Fin 1) = 0
    ∧ win1_3.index t (0 : Fin 1) = 0 ∧ win1_4.index t (0 : Fin 1) = 0
    ∧ win1_5.index t (0 : Fin 3) ≤ 3 ∧ win1_5.index t (1 : Fin 3) ≤ 7 ∧ win1_5.index t (2 : Fin 3) = 0 :=
  (by decide +kernel : ∀ t : Fin grid1.N, _)

/-- What a point writes back is its tile of the normalised array. -/
theorem flushed_eq (c : Dev nD) (t : Fin cfg1.N) :
    (dat1 (F := Ideal) V c).flushed 5 t = ((cfg1.win 5).blk t).view.read (Elt Ideal)
      (Cert.Spec.normArr (V c main_v13) (V c main_arg3) (V c main_arg4) (V c main_v16) (V c main_v17)) := by
  show (cfg1.win 5).cut (grid1.coords t) ((dat1 (F := Ideal) V c).after 5 t) = _
  rw [after1_5]
  unfold out1_5
  rw [View.canon_unit_zero origin3]
  simp only [View.ld_unit_zero (S := S1x8192x128) origin3, View.ld_unit_zero (S := S128) origin1]
  obtain ⟨e00, e01, e02, e1, e2, e3, e4, b0, b1, b2⟩ := block_indices t
  funext y
  obtain ⟨u, r, j, rfl⟩ : ∃ (u : Fin 1) (r : Fin 8192) (j : Fin 128), (y : S1x8192x128.Idx) = ix3 u r j :=
    ⟨y 0, y 1, y 2, eq_ix3 y⟩
  obtain rfl : u = 0 := Subsingleton.elim _ _
  show k1_pay1 (F := Ideal) (iblk1 V c 0 t) (iblk1 V c 1 t) (iblk1 V c 2 t) (iblk1 V c 3 t) (iblk1 V c 4 t) (ix3 (0 : Fin 1) r j)
    = Cert.Spec.normArr (V c main_v13) (V c main_arg3) (V c main_arg4) (V c main_v16) (V c main_v17)
        (((cfg1.win 5).blk t).view.emb (ix3 (0 : Fin 1) r j))
  refine (pay_apply _ _ _ _ _ r j).trans ?_
  have h0 : iblk1 V c 0 t (ix3 (0 : Fin 1) r j) = V c main_v13 (((cfg1.win 5).blk t).view.emb (ix3 (0 : Fin 1) r j)) := by
    show V c main_v13 (((cfg1.win 0).blk t).view.emb (ix3 (0 : Fin 1) r j)) = _
    refine congrArg (V c main_v13) (funext fun a => Fin.ext ?_)
    match a with
    | ⟨0, _⟩ => show win1_0.index t (0 : Fin 3) * 1 + 1 * 0 = win1_5.index t (0 : Fin 3) * 1 + 1 * 0; omega
    | ⟨1, _⟩ => show win1_0.index t (1 : Fin 3) * 8192 + 1 * r.val = win1_5.index t (1 : Fin 3) * 8192 + 1 * r.val; omega
    | ⟨2, _⟩ => show win1_0.index t (2 : Fin 3) * 128 + 1 * j.val = win1_5.index t (2 : Fin 3) * 128 + 1 * j.val; omega
  have h1 : iblk1 V c 1 t (ix1 j) = V c main_arg3 (ix1 ((((cfg1.win 5).blk t).view.emb (ix3 (0 : Fin 1) r j)) 2)) := by
    show V c main_arg3 (((cfg1.win 1).blk t).view.emb (ix1 j)) = _
    refine congrArg (V c main_arg3) (funext fun a => Fin.ext ?_)
    match a with
    | ⟨0, _⟩ => show win1_1.index t (0 : Fin 1) * 128 + 1 * j.val = win1_5.index t (2 : Fin 3) * 128 + 1 * j.val; omega
  have h2 : iblk1 V c 2 t (ix1 j) = V c main_arg4 (ix1 ((((cfg1.win 5).blk t).view.emb (ix3 (0 : Fin 1) r j)) 2)) := by
    show V c main_arg4 (((cfg1.win 2).blk t).view.emb (ix1 j)) = _
    refine congrArg (V c main_arg4) (funext fun a => Fin.ext ?_)
    match a with
    | ⟨0, _⟩ => show win1_2.index t (0 : Fin 1) * 128 + 1 * j.val = win1_5.index t (2 : Fin 3) * 128 + 1 * j.val; omega
  have h3 : iblk1 V c 3 t (ix1 j) = V c main_v16 (ix1 ((((cfg1.win 5).blk t).view.emb (ix3 (0 : Fin 1) r j)) 2)) := by
    show V c main_v16 (((cfg1.win 3).blk t).view.emb (ix1 j)) = _
    refine congrArg (V c main_v16) (funext fun a => Fin.ext ?_)
    match a with
    | ⟨0, _⟩ => show win1_3.index t (0 : Fin 1) * 128 + 1 * j.val = win1_5.index t (2 : Fin 3) * 128 + 1 * j.val; omega
  have h4 : iblk1 V c 4 t (ix1 j) = V c main_v17 (ix1 ((((cfg1.win 5).blk t).view.emb (ix3 (0 : Fin 1) r j)) 2)) := by
    show V c main_v17 (((cfg1.win 4).blk t).view.emb (ix1 j)) = _
    refine congrArg (V c main_v17) (funext fun a => Fin.ext ?_)
    match a with
    | ⟨0, _⟩ => show win1_4.index t (0 : Fin 1) * 128 + 1 * j.val = win1_5.index t (2 : Fin 3) * 128 + 1 * j.val; omega
  rw [h0, h1, h2, h3, h4]
  rfl

/-- Every tile of the array is some point's: batch q0, row block q1. -/
theorem block_onto : ∀ (q0 : Fin 4) (q1 : Fin 8), ∃ t : Fin cfg1.N, win1_5.index t = ![q0.val, q1.val, 0] :=
  (by decide +kernel : ∀ (q0 : Fin 4) (q1 : Fin 8), ∃ t : Fin grid1.N, win1_5.index t = ![q0.val, q1.val, 0])

/-- An index of the array is in a point's tile iff each coordinate is in the tile's range on its axis. -/
theorem mem_tile (t : Fin cfg1.N) (i : S4x65536x128.Idx) :
    i ∈ ((cfg1.win 5).blk t).view.set ↔ ∀ a : Fin 3, win1_5.index t a * S1x8192x128.size a ≤ (i a).val
      ∧ (i a).val < win1_5.index t a * S1x8192x128.size a + S1x8192x128.size a := by
  show i ∈ ((View.whole main_v18).slice (win1_5.rect t)).set ↔ _
  rw [View.set_slice_whole, Rect.mem_set_unit]
  exact Iff.rfl

/-- Every index of the array lies in the tile of a point that writes back: batch i 0, row block i 1 / 8192. -/
theorem covered (i : S4x65536x128.Idx) :
    ∃ t : Fin cfg1.N, (cfg1.win 5).flush t = true ∧ i ∈ ((cfg1.win 5).blk t).view.set := by
  have hi0 : (i 0).val < 4 := (i 0).isLt
  have hi1 : (i 1).val < 65536 := (i 1).isLt
  have hi2 : (i 2).val < 128 := (i 2).isLt
  obtain ⟨t, ht⟩ := block_onto ⟨(i 0).val, hi0⟩ ⟨(i 1).val / 8192, by omega⟩
  have q0 : win1_5.index t (0 : Fin 3) = (i 0).val := congrFun ht 0
  have q1 : win1_5.index t (1 : Fin 3) = (i 1).val / 8192 := congrFun ht 1
  have q2 : win1_5.index t (2 : Fin 3) = 0 := congrFun ht 2
  refine ⟨t, flush1_5 t, ?_⟩
  rw [mem_tile]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 8192 ≤ (i 1).val ∧ (i 1).val < win1_5.index t (1 : Fin 3) * 8192 + 8192; omega
  | ⟨2, _⟩ => show win1_5.index t (2 : Fin 3) * 128 ≤ (i 2).val ∧ (i 2).val < win1_5.index t (2 : Fin 3) * 128 + 128; omega

/-- After the second region the output array holds the normalisation of the arrays the region was entered with. -/
theorem arr1 (c : Dev nD) :
    (dat1 (F := Ideal) V c).arrAt 5 cfg1.N
      = Cert.Spec.normArr (V c main_v13) (V c main_arg3) (V c main_arg4) (V c main_v16) (V c main_v17) := by
  exact (dat1 (F := Ideal) V c).arrAt_eq_of_cover 5
    (Cert.Spec.normArr (V c main_v13) (V c main_arg3) (V c main_arg4) (V c main_v16) (V c main_v17))
    (fun t _ => flushed_eq V c t) covered

end Cert.KernelIdeal.Hand

end
-- ==== Proof.RRun.lean ====
/-
  The idealized reference program as a straight line of host operations, and its run.

  The program gathers each node's three neighbours' channel rows, adds the node's own row and divides by four; averages
  the sixteen weight matrices; multiplies (a contraction over the channel axis); takes each output channel's mean and
  variance over all batches and nodes; normalises, scales, shifts and takes the maximum with zero; and transposes the
  result to [batch, channel, node]. The functions it calls (the gather with its range test, the variance, the maximum
  with zero) are listed at their call sites over the call's own buffers. Every weakly fair execution terminates with
  each buffer at the fold of the operations over the launch contents.
-/
import proofs.«160927_j74062416053231_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 85 operations in order, the called functions' operations in place of the calls. -/
abbrev ops : List (HloOp τ sig (Elt F)) :=
  [ StableHlo.unary main_arg0 main_v0 ((transpose S4x65536x128 [0, 2, 1] · transposes_S4x128x65536_S4x65536x128_0_2_1) : (⟨S4x128x65536, .f32⟩ : BufTy).Contents (Elt F) → (⟨S4x65536x128, .f32⟩ : BufTy).Contents (Elt F)),
    StableHlo.reshape main_arg1 main_v1 rfl shapeCasts_S4x65536x3_S4x196608x1,
    StableHlo.TRef.nullary main_call0.c (constantI S_ 32 0#32),
    StableHlo.TRef.unary main_call0.c main_call0.v0 (broadcastInDim S4x196608x1 ![] bcast_S_S4x196608x1),
    StableHlo.TRef.binary (.of main_v1) main_call0.v0 main_call0.v1 (cmpi .slt),
    StableHlo.TRef.nullary main_call0.c_0 (constantI S_ 32 65536#32),
    StableHlo.TRef.unary main_call0.c_0 main_call0.v2 (broadcastInDim S4x196608x1 ![] bcast_S_S4x196608x1),
    StableHlo.TRef.binary (.of main_v1) main_call0.v2 main_call0.v3 addi,
    StableHlo.TRef.ternary main_call0.v1 main_call0.v3 (.of main_v1) main_call0.v4 select,
    StableHlo.TRef.nullary main_call0.c_1 (constantI S1 32 65535#32),
    StableHlo.TRef.nullary main_call0.c_2 (constantI S_ 32 0#32),
    StableHlo.TRef.unary main_call0.c_2 main_call0.v5 (broadcastInDim S4x196608x1 ![] bcast_S_S4x196608x1),
    StableHlo.TRef.binary main_call0.v4 main_call0.v5 main_call0.v6 (cmpi .sge),
    StableHlo.TRef.unary main_call0.c_1 main_call0.v7 (broadcastInDim S1x1x1 ![2] bcast_S1_S1x1x1_2),
    StableHlo.TRef.unary main_call0.v7 main_call0.v8 (broadcastInDim S4x196608x1 ![0, 1, 2] bcast_S1x1x1_S4x196608x1_0_1_2),
    StableHlo.TRef.binary main_call0.v4 main_call0.v8 main_call0.v9 (cmpi .sle),
    StableHlo.TRef.binary main_call0.v6 main_call0.v9 main_call0.v10 andi,
    StableHlo.TRef.nullary main_call0.c_3 (constantI S_ 1 1#1),
    StableHlo.TRef.binary main_call0.v10 main_call0.c_3 main_call0.v11 (fun x v => Host.reduce IntOp.andi x v reducesTo_S4x196608x1_S4x196608_d2 h_S_),
    StableHlo.TRef.binary (.of main_v0) main_call0.v4 main_call0.v12 (fun x i => Host.gather gather_S4x65536x128_S4x196608x1_S4x196608x128_2_1_0_0_1_2_11128 x i),
    StableHlo.TRef.unary main_call0.v11 main_call0.v13 (broadcastInDim S4x196608x128 ![0, 1] bcast_S4x196608_S4x196608x128_0_1),
    StableHlo.TRef.nullary main_call0.cst (constant S_ .f32 0x7FC00000#32),
    StableHlo.TRef.unary main_call0.cst main_call0.v14 (broadcastInDim S4x196608x128 ![] bcast_S_S4x196608x128),
    StableHlo.TRef.ternary main_call0.v13 main_call0.v12 main_call0.v14 main_call0.v15 select,
    StableHlo.reshape main_v2 main_v3 rfl shapeCasts_S4x196608x128_S4x65536x3x128,
    StableHlo.nullary main_cst (constant S_ .f32 0x00000000#32),
    StableHlo.binary main_v3 main_cst main_v4 ((fun x v => Host.reduceAdd x v reducesTo_S4x65536x3x128_S4x65536x128_d2 h_S_) : (⟨S4x65536x3x128, .f32⟩ : BufTy).Contents (Elt F) → (⟨S_, .f32⟩ : BufTy).Contents (Elt F) → (⟨S4x65536x128, .f32⟩ : BufTy).Contents (Elt F)),
    StableHlo.binary main_v4 main_v0 main_v5 (addf : (⟨S4x65536x128, .f32⟩ : BufTy).Contents (Elt F) → (⟨S4x65536x128, .f32⟩ : BufTy).Contents (Elt F) → (⟨S4x65536x128, .f32⟩ : BufTy).Contents (Elt F)),
    StableHlo.nullary main_cst_0 (constant S_ .f32 0x40800000#32),
    StableHlo.unary main_cst_0 main_v6 (broadcastInDim S4x65536x128 ![] bcast_S_S4x65536x128 : (⟨S_, .f32⟩ : BufTy).Contents (Elt F) → (⟨S4x65536x128, .f32⟩ : BufTy).Contents (Elt F)),
    StableHlo.binary main_v5 main_v6 main_v7 (Host.divf : (⟨S4x65536x128, .f32⟩ : BufTy).Contents (Elt F) → (⟨S4x65536x128, .f32⟩ : BufTy).Contents (Elt F) → (⟨S4x65536x128, .f32⟩ : BufTy).Contents (Elt F)),
    StableHlo.nullary main_cst_1 (constant S_ .f32 0x00000000#32),
    StableHlo.binary main_arg2 main_cst_1 main_v8 ((fun x v => Host.reduceAdd x v reducesTo_S128x128x16_S128x128_d2 h_S_) : (⟨S128x128x16, .f32⟩ : BufTy).Contents (Elt F) → (⟨S_, .f32⟩ : BufTy).Contents (Elt F) → (⟨S128x128, .f32⟩ : BufTy).Contents (Elt F)),
    StableHlo.nullary main_cst_2 (constant S_ .f32 0x41800000#32),
    StableHlo.unary main_cst_2 main_v9 (broadcastInDim S128x128 ![] bcast_S_S128x128 : (⟨S_, .f32⟩ : BufTy).Contents (Elt F) → (⟨S128x128, .f32⟩ : BufTy).Contents (Elt F)),
    StableHlo.binary main_v8 main_v9 main_v10 (Host.divf : (⟨S128x128, .f32⟩ : BufTy).Contents (Elt F) → (⟨S128x128, .f32⟩ : BufTy).Contents (Elt F) → (⟨S128x128, .f32⟩ : BufTy).Contents (Elt F)),
    StableHlo.binary main_v7 main_v10 main_v11 ((fun l r => Host.dotGeneral dot_S4x65536x128_S128x128_S4x65536x128_2_0_01_1_n_n none l r) : (⟨S4x65536x128, .f32⟩ : BufTy).Contents (Elt F) → (⟨S128x128, .f32⟩ : BufTy).Contents (Elt F) → (⟨S4x65536x128, .f32⟩ : BufTy).Contents (Elt F)),
    StableHlo.nullary main_cst_3 (constant S_ .f32 0x00000000#32),
    StableHlo.binary main_v11 main_cst_3 main_v12 ((fun x v => Host.reduceAdd x v reducesTo_S4x65536x128_S128_d0_1 h_S_) : (⟨S4x65536x128, .f32⟩ : BufTy).Contents (Elt F) → (⟨S_, .f32⟩ : BufTy).Contents (Elt F) → (⟨S128, .f32⟩ : BufTy).Contents (Elt F)),
    StableHlo.nullary main_cst_4 (constant S_ .f32 0x48800000#32),
    StableHlo.unary main_cst_4 main_v13 (broadcastInDim S128 ![] bcast_S_S128 : (⟨S_, .f32⟩ : BufTy).Contents (Elt F) → (⟨S128, .f32⟩ : BufTy).Contents (Elt F)),
    StableHlo.binary main_v12 main_v13 main_v14 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call1.cst (constant S_ .f32 0x00000000#32),
    StableHlo.TRef.binary (.of main_v11) main_call1.cst main_call1.v0 (fun x v => Host.reduceAdd x v reducesTo_S4x65536x128_S128_d0_1 h_S_),
    StableHlo.TRef.unary main_call1.v0 main_call1.v1 (broadcastInDim S1x1x128 ![2] bcast_S128_S1x1x128_2),
    StableHlo.TRef.nullary main_call1.cst_0 (constant S_ .f32 0x48800000#32),
    StableHlo.TRef.unary main_call1.cst_0 main_call1.v2 (broadcastInDim S1x1x128 ![] bcast_S_S1x1x128),
    StableHlo.TRef.binary main_call1.v1 main_call1.v2 main_call1.v3 Host.divf,
    StableHlo.TRef.unary main_call1.v3 main_call1.v4 (broadcastInDim S4x65536x128 ![0, 1, 2] bcast_S1x1x128_S4x65536x128_0_1_2),
    StableHlo.TRef.binary (.of main_v11) main_call1.v4 main_call1.v5 subf,
    StableHlo.TRef.binary main_call1.v5 main_call1.v5 main_call1.v6 mulf,
    StableHlo.TRef.unary (.of main_c) main_call1.v7 (sitofp .f32),
    StableHlo.TRef.nullary main_call1.cst_1 (constant S_ .f32 0x48800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S4x65536x128_S128_d0_1 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v14 main_v16 (broadcastInDim S1x1x128 ![2] bcast_S128_S1x1x128_2 : (⟨S128, .f32⟩ : BufTy).Contents (Elt F) → (⟨S1x1x128, .f32⟩ : BufTy).Contents (Elt F)),
    StableHlo.unary main_v16 main_v17 (broadcastInDim S4x65536x128 ![0, 1, 2] bcast_S1x1x128_S4x65536x128_0_1_2 : (⟨S1x1x128, .f32⟩ : BufTy).Contents (Elt F) → (⟨S4x65536x128, .f32⟩ : BufTy).Contents (Elt F)),
    StableHlo.binary main_v11 main_v17 main_v18 (subf : (⟨S4x65536x128, .f32⟩ : BufTy).Contents (Elt F) → (⟨S4x65536x128, .f32⟩ : BufTy).Contents (Elt F) → (⟨S4x65536x128, .f32⟩ : BufTy).Contents (Elt F)),
    StableHlo.nullary main_cst_5 (constant S_ .f32 0x3727C5AC#32),
    StableHlo.unary main_cst_5 main_v19 (broadcastInDim S128 ![] bcast_S_S128 : (⟨S_, .f32⟩ : BufTy).Contents (Elt F) → (⟨S128, .f32⟩ : BufTy).Contents (Elt F)),
    StableHlo.binary main_v15 main_v19 main_v20 (addf : (⟨S128, .f32⟩ : BufTy).Contents (Elt F) → (⟨S128, .f32⟩ : BufTy).Contents (Elt F) → (⟨S128, .f32⟩ : BufTy).Contents (Elt F)),
    StableHlo.unary main_v20 main_v21 (Host.rsqrt : (⟨S128, .f32⟩ : BufTy).Contents (Elt F) → (⟨S128, .f32⟩ : BufTy).Contents (Elt F)),
    StableHlo.unary main_v21 main_v22 (broadcastInDim S1x1x128 ![2] bcast_S128_S1x1x128_2 : (⟨S128, .f32⟩ : BufTy).Contents (Elt F) → (⟨S1x1x128, .f32⟩ : BufTy).Contents (Elt F)),
    StableHlo.unary main_v22 main_v23 (broadcastInDim S4x65536x128 ![0, 1, 2] bcast_S1x1x128_S4x65536x128_0_1_2 : (⟨S1x1x128, .f32⟩ : BufTy).Contents (Elt F) → (⟨S4x65536x128, .f32⟩ : BufTy).Contents (Elt F)),
    StableHlo.binary main_v18 main_v23 main_v24 (mulf : (⟨S4x65536x128, .f32⟩ : BufTy).Contents (Elt F) → (⟨S4x65536x128, .f32⟩ : BufTy).Contents (Elt F) → (⟨S4x65536x128, .f32⟩ : BufTy).Contents (Elt F)),
    StableHlo.unary main_arg3 main_v25 (broadcastInDim S1x1x128 ![2] bcast_S128_S1x1x128_2 : (⟨S128, .f32⟩ : BufTy).Contents (Elt F) → (⟨S1x1x128, .f32⟩ : BufTy).Contents (Elt F)),
    StableHlo.unary main_v25 main_v26 (broadcastInDim S4x65536x128 ![0, 1, 2] bcast_S1x1x128_S4x65536x128_0_1_2 : (⟨S1x1x128, .f32⟩ : BufTy).Contents (Elt F) → (⟨S4x65536x128, .f32⟩ : BufTy).Contents (Elt F)),
    StableHlo.binary main_v24 main_v26 main_v27 (mulf : (⟨S4x65536x128, .f32⟩ : BufTy).Contents (Elt F) → (⟨S4x65536x128, .f32⟩ : BufTy).Contents (Elt F) → (⟨S4x65536x128, .f32⟩ : BufTy).Contents (Elt F)),
    StableHlo.unary main_arg4 main_v28 (broadcastInDim S1x1x128 ![2] bcast_S128_S1x1x128_2 : (⟨S128, .f32⟩ : BufTy).Contents (Elt F) → (⟨S1x1x128, .f32⟩ : BufTy).Contents (Elt F)),
    StableHlo.unary main_v28 main_v29 (broadcastInDim S4x65536x128 ![0, 1, 2] bcast_S1x1x128_S4x65536x128_0_1_2 : (⟨S1x1x128, .f32⟩ : BufTy).Contents (Elt F) → (⟨S4x65536x128, .f32⟩ : BufTy).Contents (Elt F)),
    StableHlo.binary main_v27 main_v29 main_v30 (addf : (⟨S4x65536x128, .f32⟩ : BufTy).Contents (Elt F) → (⟨S4x65536x128, .f32⟩ : BufTy).Contents (Elt F) → (⟨S4x65536x128, .f32⟩ : BufTy).Contents (Elt F)),
    StableHlo.TRef.nullary main_call2.cst (constant S_ .f32 0x00000000#32),
    StableHlo.TRef.unary main_call2.cst main_call2.v0 (broadcastInDim S4x65536x128 ![] bcast_S_S4x65536x128),
    StableHlo.TRef.binary (.of main_v30) main_call2.v0 main_call2.v1 maximumf,
    StableHlo.unary main_v31 main_v32 ((transpose S4x128x65536 [0, 2, 1] · transposes_S4x65536x128_S4x128x65536_0_2_1) : (⟨S4x65536x128, .f32⟩ : BufTy).Contents (Elt F) → (⟨S4x128x65536, .f32⟩ : BufTy).Contents (Elt F)) ]

/-- @main is that straight line: the called functions' bodies unfold at their calls and the sequencing reassociates,
    by definitional unfolding alone. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., nullary_bufs_sub .., binary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub ..⟩

/-- From any memory with zero counters every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The line cut into stretches -/

/-- Running one line after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The layout change of the inputs: features to [batch, node, channel], the neighbour table flattened. -/
abbrev opsA0 : List (HloOp τ sig (Elt F)) :=
  [ StableHlo.unary main_arg0 main_v0 ((transpose S4x65536x128 [0, 2, 1] · transposes_S4x128x65536_S4x65536x128_0_2_1) : (⟨S4x128x65536, .f32⟩ : BufTy).Contents (Elt F) → (⟨S4x65536x128, .f32⟩ : BufTy).Contents (Elt F)),
    StableHlo.reshape main_arg1 main_v1 rfl shapeCasts_S4x65536x3_S4x196608x1 ]
/-- The gather of the neighbours' rows, with its range test. -/
abbrev opsA1 : List (HloOp τ sig (Elt F)) :=
  [ StableHlo.TRef.nullary main_call0.c (constantI S_ 32 0#32),
    StableHlo.TRef.unary main_call0.c main_call0.v0 (broadcastInDim S4x196608x1 ![] bcast_S_S4x196608x1),
    StableHlo.TRef.binary (.of main_v1) main_call0.v0 main_call0.v1 (cmpi .slt),
    StableHlo.TRef.nullary main_call0.c_0 (constantI S_ 32 65536#32),
    StableHlo.TRef.unary main_call0.c_0 main_call0.v2 (broadcastInDim S4x196608x1 ![] bcast_S_S4x196608x1),
    StableHlo.TRef.binary (.of main_v1) main_call0.v2 main_call0.v3 addi,
    StableHlo.TRef.ternary main_call0.v1 main_call0.v3 (.of main_v1) main_call0.v4 select,
    StableHlo.TRef.nullary main_call0.c_1 (constantI S1 32 65535#32),
    StableHlo.TRef.nullary main_call0.c_2 (constantI S_ 32 0#32),
    StableHlo.TRef.unary main_call0.c_2 main_call0.v5 (broadcastInDim S4x196608x1 ![] bcast_S_S4x196608x1),
    StableHlo.TRef.binary main_call0.v4 main_call0.v5 main_call0.v6 (cmpi .sge),
    StableHlo.TRef.unary main_call0.c_1 main_call0.v7 (broadcastInDim S1x1x1 ![2] bcast_S1_S1x1x1_2),
    StableHlo.TRef.unary main_call0.v7 main_call0.v8 (broadcastInDim S4x196608x1 ![0, 1, 2] bcast_S1x1x1_S4x196608x1_0_1_2),
    StableHlo.TRef.binary main_call0.v4 main_call0.v8 main_call0.v9 (cmpi .sle),
    StableHlo.TRef.binary main_call0.v6 main_call0.v9 main_call0.v10 andi,
    StableHlo.TRef.nullary main_call0.c_3 (constantI S_ 1 1#1),
    StableHlo.TRef.binary main_call0.v10 main_call0.c_3 main_call0.v11 (fun x v => Host.reduce IntOp.andi x v reducesTo_S4x196608x1_S4x196608_d2 h_S_),
    StableHlo.TRef.binary (.of main_v0) main_call0.v4 main_call0.v12 (fun x i => Host.gather gather_S4x65536x128_S4x196608x1_S4x196608x128_2_1_0_0_1_2_11128 x i),
    StableHlo.TRef.unary main_call0.v11 main_call0.v13 (broadcastInDim S4x196608x128 ![0, 1] bcast_S4x196608_S4x196608x128_0_1),
    StableHlo.TRef.nullary main_call0.cst (constant S_ .f32 0x7FC00000#32),
    StableHlo.TRef.unary main_call0.cst main_call0.v14 (broadcastInDim S4x196608x128 ![] bcast_S_S4x196608x128),
    StableHlo.TRef.ternary main_call0.v13 main_call0.v12 main_call0.v14 main_call0.v15 select ]
/-- The mean over a node and its three neighbours, and the mean of the sixteen weight matrices. -/
abbrev opsA2 : List (HloOp τ sig (Elt F)) :=
  [ StableHlo.reshape main_v2 main_v3 rfl shapeCasts_S4x196608x128_S4x65536x3x128,
    StableHlo.nullary main_cst (constant S_ .f32 0x00000000#32),
    StableHlo.binary main_v3 main_cst main_v4 ((fun x v => Host.reduceAdd x v reducesTo_S4x65536x3x128_S4x65536x128_d2 h_S_) : (⟨S4x65536x3x128, .f32⟩ : BufTy).Contents (Elt F) → (⟨S_, .f32⟩ : BufTy).Contents (Elt F) → (⟨S4x65536x128, .f32⟩ : BufTy).Contents (Elt F)),
    StableHlo.binary main_v4 main_v0 main_v5 (addf : (⟨S4x65536x128, .f32⟩ : BufTy).Contents (Elt F) → (⟨S4x65536x128, .f32⟩ : BufTy).Contents (Elt F) → (⟨S4x65536x128, .f32⟩ : BufTy).Contents (Elt F)),
    StableHlo.nullary main_cst_0 (constant S_ .f32 0x40800000#32),
    StableHlo.unary main_cst_0 main_v6 (broadcastInDim S4x65536x128 ![] bcast_S_S4x65536x128 : (⟨S_, .f32⟩ : BufTy).Contents (Elt F) → (⟨S4x65536x128, .f32⟩ : BufTy).Contents (Elt F)),
    StableHlo.binary main_v5 main_v6 main_v7 (Host.divf : (⟨S4x65536x128, .f32⟩ : BufTy).Contents (Elt F) → (⟨S4x65536x128, .f32⟩ : BufTy).Contents (Elt F) → (⟨S4x65536x128, .f32⟩ : BufTy).Contents (Elt F)),
    StableHlo.nullary main_cst_1 (constant S_ .f32 0x00000000#32),
    StableHlo.binary main_arg2 main_cst_1 main_v8 ((fun x v => Host.reduceAdd x v reducesTo_S128x128x16_S128x128_d2 h_S_) : (⟨S128x128x16, .f32⟩ : BufTy).Contents (Elt F) → (⟨S_, .f32⟩ : BufTy).Contents (Elt F) → (⟨S128x128, .f32⟩ : BufTy).Contents (Elt F)),
    StableHlo.nullary main_cst_2 (constant S_ .f32 0x41800000#32),
    StableHlo.unary main_cst_2 main_v9 (broadcastInDim S128x128 ![] bcast_S_S128x128 : (⟨S_, .f32⟩ : BufTy).Contents (Elt F) → (⟨S128x128, .f32⟩ : BufTy).Contents (Elt F)),
    StableHlo.binary main_v8 main_v9 main_v10 (Host.divf : (⟨S128x128, .f32⟩ : BufTy).Contents (Elt F) → (⟨S128x128, .f32⟩ : BufTy).Contents (Elt F) → (⟨S128x128, .f32⟩ : BufTy).Contents (Elt F)) ]
/-- The feature product. -/
abbrev opsB : List (HloOp τ sig (Elt F)) :=
  [ StableHlo.binary main_v7 main_v10 main_v11 ((fun l r => Host.dotGeneral dot_S4x65536x128_S128x128_S4x65536x128_2_0_01_1_n_n none l r) : (⟨S4x65536x128, .f32⟩ : BufTy).Contents (Elt F) → (⟨S128x128, .f32⟩ : BufTy).Contents (Elt F) → (⟨S4x65536x128, .f32⟩ : BufTy).Contents (Elt F)) ]
/-- Each channel's mean. -/
abbrev opsC0 : List (HloOp τ sig (Elt F)) :=
  [ StableHlo.nullary main_cst_3 (constant S_ .f32 0x00000000#32),
    StableHlo.binary main_v11 main_cst_3 main_v12 ((fun x v => Host.reduceAdd x v reducesTo_S4x65536x128_S128_d0_1 h_S_) : (⟨S4x65536x128, .f32⟩ : BufTy).Contents (Elt F) → (⟨S_, .f32⟩ : BufTy).Contents (Elt F) → (⟨S128, .f32⟩ : BufTy).Contents (Elt F)),
    StableHlo.nullary main_cst_4 (constant S_ .f32 0x48800000#32),
    StableHlo.unary main_cst_4 main_v13 (broadcastInDim S128 ![] bcast_S_S128 : (⟨S_, .f32⟩ : BufTy).Contents (Elt F) → (⟨S128, .f32⟩ : BufTy).Contents (Elt F)),
    StableHlo.binary main_v12 main_v13 main_v14 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32) ]
/-- Each channel's variance. -/
abbrev opsC1 : List (HloOp τ sig (Elt F)) :=
  [ StableHlo.TRef.nullary main_call1.cst (constant S_ .f32 0x00000000#32),
    StableHlo.TRef.binary (.of main_v11) main_call1.cst main_call1.v0 (fun x v => Host.reduceAdd x v reducesTo_S4x65536x128_S128_d0_1 h_S_),
    StableHlo.TRef.unary main_call1.v0 main_call1.v1 (broadcastInDim S1x1x128 ![2] bcast_S128_S1x1x128_2),
    StableHlo.TRef.nullary main_call1.cst_0 (constant S_ .f32 0x48800000#32),
    StableHlo.TRef.unary main_call1.cst_0 main_call1.v2 (broadcastInDim S1x1x128 ![] bcast_S_S1x1x128),
    StableHlo.TRef.binary main_call1.v1 main_call1.v2 main_call1.v3 Host.divf,
    StableHlo.TRef.unary main_call1.v3 main_call1.v4 (broadcastInDim S4x65536x128 ![0, 1, 2] bcast_S1x1x128_S4x65536x128_0_1_2),
    StableHlo.TRef.binary (.of main_v11) main_call1.v4 main_call1.v5 subf,
    StableHlo.TRef.binary main_call1.v5 main_call1.v5 main_call1.v6 mulf,
    StableHlo.TRef.unary (.of main_c) main_call1.v7 (sitofp .f32),
    StableHlo.TRef.nullary main_call1.cst_1 (constant S_ .f32 0x48800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S4x65536x128_S128_d0_1 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]
/-- The normalisation, scale, shift and maximum with zero. -/
abbrev opsD : List (HloOp τ sig (Elt F)) :=
  [ StableHlo.unary main_v14 main_v16 (broadcastInDim S1x1x128 ![2] bcast_S128_S1x1x128_2 : (⟨S128, .f32⟩ : BufTy).Contents (Elt F) → (⟨S1x1x128, .f32⟩ : BufTy).Contents (Elt F)),
    StableHlo.unary main_v16 main_v17 (broadcastInDim S4x65536x128 ![0, 1, 2] bcast_S1x1x128_S4x65536x128_0_1_2 : (⟨S1x1x128, .f32⟩ : BufTy).Contents (Elt F) → (⟨S4x65536x128, .f32⟩ : BufTy).Contents (Elt F)),
    StableHlo.binary main_v11 main_v17 main_v18 (subf : (⟨S4x65536x128, .f32⟩ : BufTy).Contents (Elt F) → (⟨S4x65536x128, .f32⟩ : BufTy).Contents (Elt F) → (⟨S4x65536x128, .f32⟩ : BufTy).Contents (Elt F)),
    StableHlo.nullary main_cst_5 (constant S_ .f32 0x3727C5AC#32),
    StableHlo.unary main_cst_5 main_v19 (broadcastInDim S128 ![] bcast_S_S128 : (⟨S_, .f32⟩ : BufTy).Contents (Elt F) → (⟨S128, .f32⟩ : BufTy).Contents (Elt F)),
    StableHlo.binary main_v15 main_v19 main_v20 (addf : (⟨S128, .f32⟩ : BufTy).Contents (Elt F) → (⟨S128, .f32⟩ : BufTy).Contents (Elt F) → (⟨S128, .f32⟩ : BufTy).Contents (Elt F)),
    StableHlo.unary main_v20 main_v21 (Host.rsqrt : (⟨S128, .f32⟩ : BufTy).Contents (Elt F) → (⟨S128, .f32⟩ : BufTy).Contents (Elt F)),
    StableHlo.unary main_v21 main_v22 (broadcastInDim S1x1x128 ![2] bcast_S128_S1x1x128_2 : (⟨S128, .f32⟩ : BufTy).Contents (Elt F) → (⟨S1x1x128, .f32⟩ : BufTy).Contents (Elt F)),
    StableHlo.unary main_v22 main_v23 (broadcastInDim S4x65536x128 ![0, 1, 2] bcast_S1x1x128_S4x65536x128_0_1_2 : (⟨S1x1x128, .f32⟩ : BufTy).Contents (Elt F) → (⟨S4x65536x128, .f32⟩ : BufTy).Contents (Elt F)),
    StableHlo.binary main_v18 main_v23 main_v24 (mulf : (⟨S4x65536x128, .f32⟩ : BufTy).Contents (Elt F) → (⟨S4x65536x128, .f32⟩ : BufTy).Contents (Elt F) → (⟨S4x65536x128, .f32⟩ : BufTy).Contents (Elt F)),
    StableHlo.unary main_arg3 main_v25 (broadcastInDim S1x1x128 ![2] bcast_S128_S1x1x128_2 : (⟨S128, .f32⟩ : BufTy).Contents (Elt F) → (⟨S1x1x128, .f32⟩ : BufTy).Contents (Elt F)),
    StableHlo.unary main_v25 main_v26 (broadcastInDim S4x65536x128 ![0, 1, 2] bcast_S1x1x128_S4x65536x128_0_1_2 : (⟨S1x1x128, .f32⟩ : BufTy).Contents (Elt F) → (⟨S4x65536x128, .f32⟩ : BufTy).Contents (Elt F)),
    StableHlo.binary main_v24 main_v26 main_v27 (mulf : (⟨S4x65536x128, .f32⟩ : BufTy).Contents (Elt F) → (⟨S4x65536x128, .f32⟩ : BufTy).Contents (Elt F) → (⟨S4x65536x128, .f32⟩ : BufTy).Contents (Elt F)),
    StableHlo.unary main_arg4 main_v28 (broadcastInDim S1x1x128 ![2] bcast_S128_S1x1x128_2 : (⟨S128, .f32⟩ : BufTy).Contents (Elt F) → (⟨S1x1x128, .f32⟩ : BufTy).Contents (Elt F)),
    StableHlo.unary main_v28 main_v29 (broadcastInDim S4x65536x128 ![0, 1, 2] bcast_S1x1x128_S4x65536x128_0_1_2 : (⟨S1x1x128, .f32⟩ : BufTy).Contents (Elt F) → (⟨S4x65536x128, .f32⟩ : BufTy).Contents (Elt F)),
    StableHlo.binary main_v27 main_v29 main_v30 (addf : (⟨S4x65536x128, .f32⟩ : BufTy).Contents (Elt F) → (⟨S4x65536x128, .f32⟩ : BufTy).Contents (Elt F) → (⟨S4x65536x128, .f32⟩ : BufTy).Contents (Elt F)),
    StableHlo.TRef.nullary main_call2.cst (constant S_ .f32 0x00000000#32),
    StableHlo.TRef.unary main_call2.cst main_call2.v0 (broadcastInDim S4x65536x128 ![] bcast_S_S4x65536x128),
    StableHlo.TRef.binary (.of main_v30) main_call2.v0 main_call2.v1 maximumf ]
/-- The transpose to [batch, channel, node]. -/
abbrev opsE : List (HloOp τ sig (Elt F)) :=
  [ StableHlo.unary main_v31 main_v32 ((transpose S4x128x65536 [0, 2, 1] · transposes_S4x65536x128_S4x128x65536_0_2_1) : (⟨S4x65536x128, .f32⟩ : BufTy).Contents (Elt F) → (⟨S4x128x65536, .f32⟩ : BufTy).Contents (Elt F)) ]

theorem ops_split : (ops : List (HloOp τ sig (Elt F))) = opsA0 ++ opsA1 ++ opsA2 ++ opsB ++ opsC0 ++ opsC1 ++ opsD ++ opsE := rfl

/-- The fold over the whole line is the stretches' folds one after the other. -/
theorem after_ops (V : Valuation τ sig (Elt F)) :
    after ops V = after opsE (after opsD (after opsC1 (after opsC0 (after opsB (after opsA2 (after opsA1 (after opsA0 V))))))) := by
  rw [ops_split]; simp only [after_append]

end Cert.ReferenceIdeal.Hand

end
-- ==== Proof.RDot.lean ====
/-
  The reference's feature product, read at an index.

  The host contracts the feature array's channel axis against the weight matrix's row axis; the result keeps the
  feature array's batch and node axes and takes the matrix's column axis last. At (b, n, j) it is the sum over the
  contracted channel k of x[b, n, k] · w[k, j]: the contraction index has one coordinate, which the left operand reads
  on its last axis and the right operand on its first.
-/
import proofs.«160927_j74062416053231_1_alg».proof.Proof.Gen.ReferenceIdeal
import proofs.«160927_j74062416053231_1_alg».proof.Proof.Spec
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx

/-- The contraction's dimension numbers: the features' channel axis against the matrix's row axis, no batch axis. -/
abbrev D : DotDims S4x65536x128 S128x128 S4x65536x128 := dot_S4x65536x128_S128x128_S4x65536x128_2_0_01_1_n_n

/-- The left operand keeps the result's batch. -/
theorem dot_lhs_0 (i : S4x65536x128.Idx) (q : D.contr.Idx) : (D.lhsIdx i q 0).val = (i 0).val := by
  unfold DotDims.lhsIdx
  rw [dif_neg (show ¬(0 : Fin S4x65536x128.rank) ∈ D.lhsBatch from fun h => nomatch h),
    dif_pos (show (0 : Fin S4x65536x128.rank) ∈ D.lhsNonContracting from by decide)]
  rfl

/-- The left operand keeps the result's node. -/
theorem dot_lhs_1 (i : S4x65536x128.Idx) (q : D.contr.Idx) : (D.lhsIdx i q 1).val = (i 1).val := by
  unfold DotDims.lhsIdx
  rw [dif_neg (show ¬(1 : Fin S4x65536x128.rank) ∈ D.lhsBatch from fun h => nomatch h),
    dif_pos (show (1 : Fin S4x65536x128.rank) ∈ D.lhsNonContracting from by decide)]
  rfl

/-- The left operand's channel is the contraction position. -/
theorem dot_lhs_2 (i : S4x65536x128.Idx) (q : D.contr.Idx) : (D.lhsIdx i q 2).val = (q ⟨0, Nat.one_pos⟩).val :=
  D.lhsIdx_val_of_single rfl i q

/-- The right operand's row is the contraction position. -/
theorem dot_rhs_0 (i : S4x65536x128.Idx) (q : D.contr.Idx) : (D.rhsIdx i q 0).val = (q ⟨0, Nat.one_pos⟩).val :=
  D.rhsIdx_val_of_single rfl i q

/-- The right operand's column is the result's channel. -/
theorem dot_rhs_1 (i : S4x65536x128.Idx) (q : D.contr.Idx) : (D.rhsIdx i q 1).val = (i 2).val := by
  unfold DotDims.rhsIdx
  rw [dif_neg (show ¬(1 : Fin S128x128.rank) ∈ D.rhsBatch from fun h => nomatch h),
    dif_pos (show (1 : Fin S128x128.rank) ∈ D.rhsNonContracting from by decide)]
  rfl

/-- The host's contraction is the feature product, entry by entry. -/
theorem dot_eq_prod (x : FVec Ideal S4x65536x128 .f32) (w : FVec Ideal S128x128 .f32) :
    Host.dotGeneral D none x w = Cert.Spec.prodArr x w := by
  funext i
  obtain ⟨b, n, j, rfl⟩ : ∃ (b : Fin 4) (n : Fin 65536) (j : Fin 128), i = ix3 b n j := ⟨i 0, i 1, i 2, eq_ix3 i⟩
  show FloatOps.dotGeneral D none .single x w (ix3 b n j) = _
  rw [Ideal.dotGeneral_apply, Cert.Spec.prodArr_apply]
  unfold Cert.Spec.prodAt
  rw [← Equiv.sum_comp (contrEquiv1 D 128 rfl rfl).symm]
  refine Finset.sum_congr rfl fun k _ => ?_
  have hk := contrEquiv1_symm_val D 128 rfl rfl k
  have el : D.lhsIdx (ix3 b n j) ((contrEquiv1 D 128 rfl rfl).symm k) = ix3 b n k :=
    funext fun a => Fin.ext (by
      match a with
      | ⟨0, _⟩ => exact dot_lhs_0 _ _
      | ⟨1, _⟩ => exact dot_lhs_1 _ _
      | ⟨2, _⟩ => exact (dot_lhs_2 _ _).trans hk)
  have er : D.rhsIdx (ix3 b n j) ((contrEquiv1 D 128 rfl rfl).symm k) = ix2 k j :=
    funext fun a => Fin.ext (by
      match a with
      | ⟨0, _⟩ => exact (dot_rhs_0 _ _).trans hk
      | ⟨1, _⟩ => exact dot_rhs_1 _ _)
  rw [el, er]

end Cert.ReferenceIdeal.Hand

end
-- ==== Proof.RNorm.lean ====
/-
  The reference's normalisation, read at an index.

  A per-channel row v is laid along the last axis of a [1, 1, 128] array and that array along the batch and node axes,
  so at (b, n, j) it reads v[j]; a scalar laid along every axis reads the scalar. Entry (b, n, j) of the host's chain
  — subtract the mean, multiply by the reciprocal square root of the variance plus ε, multiply by the scale, add the
  shift, take the maximum with zero — is therefore the normalisation of x[b, n, j] with channel j's four numbers.
-/
import proofs.«160927_j74062416053231_1_alg».proof.Proof.Gen.ReferenceIdeal
import proofs.«160927_j74062416053231_1_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx

/-- A per-channel row laid along every batch and node reads, at (b, n, j), its entry j. -/
theorem chan_apply (v : FVec Ideal S128 .f32) (b : Fin 4) (n : Fin 65536) (j : Fin 128) :
    broadcastInDim S4x65536x128 ![0, 1, 2] bcast_S1x1x128_S4x65536x128_0_1_2
        (broadcastInDim S1x1x128 ![2] bcast_S128_S1x1x128_2 v) (ix3 b n j) = v (ix1 j) := by
  rw [broadcastInDim_apply ![0, 1, 2] bcast_S1x1x128_S4x65536x128_0_1_2 _ (ix3 b n j) (ix3 (0 : Fin 1) (0 : Fin 1) j)
    (fun a => by
      match a with
      | ⟨0, _⟩ => rfl
      | ⟨1, _⟩ => rfl
      | ⟨2, _⟩ => rfl)]
  exact broadcastInDim_apply ![2] bcast_S128_S1x1x128_2 v (ix3 (0 : Fin 1) (0 : Fin 1) j) (ix1 j)
    (fun a => by
      match a with
      | ⟨0, _⟩ => rfl)

/-- The host's normalisation chain is the normalisation, entry by entry. -/
theorem norm_eq (x : FVec Ideal S4x65536x128 .f32) (g be mu vr : FVec Ideal S128 .f32) :
    maximumf
        (addf
          (mulf
            (mulf
              (subf x
                (broadcastInDim S4x65536x128 ![0, 1, 2] bcast_S1x1x128_S4x65536x128_0_1_2
                  (broadcastInDim S1x1x128 ![2] bcast_S128_S1x1x128_2 mu)))
              (broadcastInDim S4x65536x128 ![0, 1, 2] bcast_S1x1x128_S4x65536x128_0_1_2
                (broadcastInDim S1x1x128 ![2] bcast_S128_S1x1x128_2
                  (Host.rsqrt (addf vr (broadcastInDim S128 ![] bcast_S_S128 (constant (F := Ideal) S_ .f32 0x3727C5AC#32)))))))
            (broadcastInDim S4x65536x128 ![0, 1, 2] bcast_S1x1x128_S4x65536x128_0_1_2
              (broadcastInDim S1x1x128 ![2] bcast_S128_S1x1x128_2 g)))
          (broadcastInDim S4x65536x128 ![0, 1, 2] bcast_S1x1x128_S4x65536x128_0_1_2
            (broadcastInDim S1x1x128 ![2] bcast_S128_S1x1x128_2 be)))
        (broadcastInDim S4x65536x128 ![] bcast_S_S4x65536x128 (constant (F := Ideal) S_ .f32 0x00000000#32))
      = Cert.Spec.normArr x g be mu vr := by
  funext i
  obtain ⟨b, n, j, rfl⟩ : ∃ (b : Fin 4) (n : Fin 65536) (j : Fin 128), i = ix3 b n j := ⟨i 0, i 1, i 2, eq_ix3 i⟩
  rw [Cert.Spec.normArr_apply]
  unfold Cert.Spec.normAt
  show max ((x (ix3 b n j) - _) * _ * _ + _) _ = _
  rw [chan_apply mu b n j, chan_apply g b n j, chan_apply be b n j, chan_apply _ b n j, broadcastInDim_scalar_apply]
  show max ((x (ix3 b n j) - mu (ix1 j)) * Ideal.rsqrt (vr (ix1 j) + broadcastInDim S128 ![] bcast_S_S128 (constant (F := Ideal) S_ .f32 0x3727C5AC#32) (ix1 j)) * g (ix1 j) + be (ix1 j))
      (Ideal.ofBits .f32 0x00000000#32) = _
  rw [broadcastInDim_scalar_apply, Ideal.ofBits_zero_f32]
  rfl

end Cert.ReferenceIdeal.Hand

end
-- ==== Proof.Sim.lean ====
/-
  The two programs' host stretches compute the same functions.

  Both programs spell the layout change, the neighbour gather with its range test, the mean over a node and its
  neighbours, the mean of the weight matrices, each channel's mean and variance, and the closing transpose with the
  same operations in the same order; only the buffers' numbers differ, and the kernel's program narrows the two
  matmul operands to bf16, which on the extended reals changes nothing. So from equal inputs each stretch leaves equal
  values. The reference's own stretches (the contraction, the normalisation chain) are read as the two array functions
  of the specification.
-/
import proofs.«160927_j74062416053231_1_alg».proof.Proof.Gen.KernelIdeal.Launch
import proofs.«160927_j74062416053231_1_alg».proof.Proof.RRun
import proofs.«160927_j74062416053231_1_alg».proof.Proof.RDot
import proofs.«160927_j74062416053231_1_alg».proof.Proof.RNorm
import proofs.«160927_j74062416053231_1_alg».proof.Proof.Spec
import Idealize.ShloMosaic.PureOps.Ideal

noncomputable section

namespace Cert.Sim

open Idealize.ShloMosaic Idealize.ShloMosaic.TcCoe Idealize.SL.Sem Idealize.ShloMosaic.StableHlo
open Cert.KernelIdeal.Gen (hostOps0 hostOps0_1 hostOps0_2 hostOps1 hostOps1_1 hostOps2)
open Cert.ReferenceIdeal.Hand (ops opsA0 opsA1 opsA2 opsB opsC0 opsC1 opsD opsE)

variable (VK : Valuation Cert.KernelIdeal.τ Cert.KernelIdeal.sig (Elt Ideal)) (VR : Valuation Cert.ReferenceIdeal.τ Cert.ReferenceIdeal.sig (Elt Ideal))

/-! ## Before the feature product -/

set_option maxHeartbeats 1000000 in
/-- From equal features and neighbour tables both programs leave the same mean over a node and its neighbours. -/
theorem pre_feat (a0 : FVec Ideal ⟨3, ![4, 128, 65536]⟩ .f32) (a1 : IVec ⟨3, ![4, 65536, 3]⟩ 32)
    (hK0 : VK (Proc.devRef .tc Cert.KernelIdeal.main_arg0) = a0) (hK1 : VK (Proc.devRef .tc Cert.KernelIdeal.main_arg1) = a1)
    (hR0 : VR (Proc.devRef .tc Cert.ReferenceIdeal.main_arg0) = a0) (hR1 : VR (Proc.devRef .tc Cert.ReferenceIdeal.main_arg1) = a1) :
    (after hostOps0_2 (after hostOps0_1 (after hostOps0 VK)) (Proc.devRef .tc Cert.KernelIdeal.main_v8) : Cert.Spec.SFeat.Idx → EReal)
      = after opsA2 (after opsA1 (after opsA0 VR)) (Proc.devRef .tc Cert.ReferenceIdeal.main_v7) := by
  after_results_simp
  rw [hK0, hK1, hR0, hR1]
  rfl

set_option maxHeartbeats 1000000 in
/-- From equal weights both programs leave the same mean of the sixteen matrices. -/
theorem pre_wt (a2 : FVec Ideal ⟨3, ![128, 128, 16]⟩ .f32)
    (hK2 : VK (Proc.devRef .tc Cert.KernelIdeal.main_arg2) = a2) (hR2 : VR (Proc.devRef .tc Cert.ReferenceIdeal.main_arg2) = a2) :
    (after hostOps0_2 (after hostOps0_1 (after hostOps0 VK)) (Proc.devRef .tc Cert.KernelIdeal.main_v12) : Cert.Spec.SWt.Idx → EReal)
      = after opsA2 (after opsA1 (after opsA0 VR)) (Proc.devRef .tc Cert.ReferenceIdeal.main_v10) := by
  after_results_simp
  rw [hK2, hR2]
  rfl

/-! ## Between the two kernel regions -/

set_option maxHeartbeats 1000000 in
/-- From equal feature products both programs leave the same per-channel mean. -/
theorem mid_mean (X : FVec Ideal ⟨3, ![4, 65536, 128]⟩ .f32)
    (hK : VK (Proc.devRef .tc Cert.KernelIdeal.main_v13) = X) (hR : VR (Proc.devRef .tc Cert.ReferenceIdeal.main_v11) = X) :
    (after hostOps1_1 (after hostOps1 VK) (Proc.devRef .tc Cert.KernelIdeal.main_v16) : Cert.Spec.SCh.Idx → EReal)
      = after opsC1 (after opsC0 VR) (Proc.devRef .tc Cert.ReferenceIdeal.main_v14) := by
  after_results_simp
  rw [hK, hR]

set_option maxHeartbeats 1000000 in
/-- From equal feature products both programs leave the same per-channel variance. -/
theorem mid_var (X : FVec Ideal ⟨3, ![4, 65536, 128]⟩ .f32)
    (hK : VK (Proc.devRef .tc Cert.KernelIdeal.main_v13) = X) (hR : VR (Proc.devRef .tc Cert.ReferenceIdeal.main_v11) = X) :
    (after hostOps1_1 (after hostOps1 VK) (Proc.devRef .tc Cert.KernelIdeal.main_v17) : Cert.Spec.SCh.Idx → EReal)
      = after opsC1 (after opsC0 VR) (Proc.devRef .tc Cert.ReferenceIdeal.main_v15) := by
  after_results_simp
  rw [hK, hR]

set_option maxHeartbeats 1000000 in
/-- The mean and the variance leave the feature product where it is, in the kernel's program -/
theorem mid_keepK : after hostOps1_1 (after hostOps1 VK) (Proc.devRef .tc Cert.KernelIdeal.main_v13) = VK (Proc.devRef .tc Cert.KernelIdeal.main_v13) := by
  after_results_simp

set_option maxHeartbeats 1000000 in
/-- and in the reference. -/
theorem mid_keepR : after opsC1 (after opsC0 VR) (Proc.devRef .tc Cert.ReferenceIdeal.main_v11) = VR (Proc.devRef .tc Cert.ReferenceIdeal.main_v11) := by
  after_results_simp

/-! ## The reference's own stretches -/

/-- The reference's contraction is the feature product of what it finds. -/
theorem ref_prod : (after opsB VR (Proc.devRef .tc Cert.ReferenceIdeal.main_v11) : Cert.Spec.SFeat.Idx → EReal)
    = Cert.Spec.prodArr (VR (Proc.devRef .tc Cert.ReferenceIdeal.main_v7)) (VR (Proc.devRef .tc Cert.ReferenceIdeal.main_v10)) := by
  after_results_simp
  exact Cert.ReferenceIdeal.Hand.dot_eq_prod _ _

set_option maxHeartbeats 1000000 in
/-- The reference's normalisation chain is the normalisation of what it finds. -/
theorem ref_norm : (after opsD VR (Proc.devRef .tc Cert.ReferenceIdeal.main_v31) : Cert.Spec.SFeat.Idx → EReal)
    = Cert.Spec.normArr (VR (Proc.devRef .tc Cert.ReferenceIdeal.main_v11)) (VR (Proc.devRef .tc Cert.ReferenceIdeal.main_arg3)) (VR (Proc.devRef .tc Cert.ReferenceIdeal.main_arg4))
        (VR (Proc.devRef .tc Cert.ReferenceIdeal.main_v14)) (VR (Proc.devRef .tc Cert.ReferenceIdeal.main_v15)) := by
  after_results_simp
  exact Cert.ReferenceIdeal.Hand.norm_eq _ _ _ _ _

/-! ## The closing transpose -/

/-- From equal outputs both programs return the same transposed array. -/
theorem post_eq (Y : FVec Ideal ⟨3, ![4, 65536, 128]⟩ .f32)
    (hK : VK (Proc.devRef .tc Cert.KernelIdeal.main_v18) = Y) (hR : VR (Proc.devRef .tc Cert.ReferenceIdeal.main_v31) = Y) :
    (after hostOps2 VK (Proc.devRef .tc Cert.KernelIdeal.main_v19) : (⟨3, ![4, 128, 65536]⟩ : Shape).Idx → EReal)
      = after opsE VR (Proc.devRef .tc Cert.ReferenceIdeal.main_v32) := by
  after_results_simp
  rw [hK, hR]

/-! ## The reference leaves its arguments where they are -/

set_option maxHeartbeats 1000000 in
theorem ref_keep_g : after opsC1 (after opsC0 (after opsB (after opsA2 (after opsA1 (after opsA0 VR))))) (Proc.devRef .tc Cert.ReferenceIdeal.main_arg3) = VR (Proc.devRef .tc Cert.ReferenceIdeal.main_arg3) := by
  after_results_simp

set_option maxHeartbeats 1000000 in
theorem ref_keep_be : after opsC1 (after opsC0 (after opsB (after opsA2 (after opsA1 (after opsA0 VR))))) (Proc.devRef .tc Cert.ReferenceIdeal.main_arg4) = VR (Proc.devRef .tc Cert.ReferenceIdeal.main_arg4) := by
  after_results_simp

set_option maxHeartbeats 1000000 in
theorem ref_arg0 : after ops VR (Proc.devRef .tc Cert.ReferenceIdeal.main_arg0) = VR (Proc.devRef .tc Cert.ReferenceIdeal.main_arg0) := by
  after_results_simp

set_option maxHeartbeats 1000000 in
theorem ref_arg1 : after ops VR (Proc.devRef .tc Cert.ReferenceIdeal.main_arg1) = VR (Proc.devRef .tc Cert.ReferenceIdeal.main_arg1) := by
  after_results_simp

set_option maxHeartbeats 1000000 in
theorem ref_arg2 : after ops VR (Proc.devRef .tc Cert.ReferenceIdeal.main_arg2) = VR (Proc.devRef .tc Cert.ReferenceIdeal.main_arg2) := by
  after_results_simp

set_option maxHeartbeats 1000000 in
theorem ref_arg3 : after ops VR (Proc.devRef .tc Cert.ReferenceIdeal.main_arg3) = VR (Proc.devRef .tc Cert.ReferenceIdeal.main_arg3) := by
  after_results_simp

set_option maxHeartbeats 1000000 in
theorem ref_arg4 : after ops VR (Proc.devRef .tc Cert.ReferenceIdeal.main_arg4) = VR (Proc.devRef .tc Cert.ReferenceIdeal.main_arg4) := by
  after_results_simp

end Cert.Sim

end
-- ==== Proof.Value.lean ====
/-
  The two programs return the same array.

  Stretch by stretch: from equal arguments both programs reach the first kernel region (the reference: its
  contraction) with the same two operands, and both leave their feature product; from equal feature products both
  compute the same per-channel mean and variance, and the scale and shift are the arguments untouched; the second kernel
  region and the reference's normalisation chain both leave the normalisation of those; the closing transposes agree.
-/
import proofs.«160927_j74062416053231_1_alg».proof.Proof.KRun
import proofs.«160927_j74062416053231_1_alg».proof.Proof.KRegion0
import proofs.«160927_j74062416053231_1_alg».proof.Proof.KRegion1
import proofs.«160927_j74062416053231_1_alg».proof.Proof.Sim

noncomputable section

namespace Cert.Value

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Hand
open Cert.ReferenceIdeal.Hand (ops opsA0 opsA1 opsA2 opsB opsC0 opsC1 opsD opsE after_ops)

variable (m : (ℓ : Loc nD τ sig) → Buf (Elt Ideal) ℓ) (ρ : Dev nD → PrngReg)

/-- The scale reaches the second region as launched. -/
theorem keep_g (c : Dev nD) :
    after hostOps1_1 (after hostOps1 (W4 m ρ c)) (Proc.devRef .tc main_arg3) = m ((c : Thread nD τ).loc main_arg3) := by
  show W6 m ρ c (Proc.devRef .tc main_arg3) = _
  have h87 : W8 m ρ c (Proc.devRef .tc main_arg3) = W7 m ρ c (Proc.devRef .tc main_arg3) := by
    show after hostOps2 (W7 m ρ c) _ = _
    after_results
  have h76 : W7 m ρ c (Proc.devRef .tc main_arg3) = W6 m ρ c (Proc.devRef .tc main_arg3) :=
    (W7_arr m ρ c 1).trans (((dat1 (V6 m ρ) c).arrAt_in 1 rfl _).trans (A_eq1 (V6 m ρ) c 1))
  exact h76.symm.trans (h87.symm.trans (W8_main_arg3 m ρ c))

/-- The shift reaches the second region as launched. -/
theorem keep_be (c : Dev nD) :
    after hostOps1_1 (after hostOps1 (W4 m ρ c)) (Proc.devRef .tc main_arg4) = m ((c : Thread nD τ).loc main_arg4) := by
  show W6 m ρ c (Proc.devRef .tc main_arg4) = _
  have h87 : W8 m ρ c (Proc.devRef .tc main_arg4) = W7 m ρ c (Proc.devRef .tc main_arg4) := by
    show after hostOps2 (W7 m ρ c) _ = _
    after_results
  have h76 : W7 m ρ c (Proc.devRef .tc main_arg4) = W6 m ρ c (Proc.devRef .tc main_arg4) :=
    (W7_arr m ρ c 2).trans (((dat1 (V6 m ρ) c).arrAt_in 2 rfl _).trans (A_eq1 (V6 m ρ) c 2))
  exact h76.symm.trans (h87.symm.trans (W8_main_arg4 m ρ c))

/-- The kernel program's feature product array after the first region. -/
theorem prod_after (c : Dev nD) :
    (W4 m ρ c (Proc.devRef .tc main_v13) : Cert.Spec.SFeat.Idx → EReal)
      = Cert.Spec.prodArr (after hostOps0_2 (after hostOps0_1 (after hostOps0 (W0 m ρ c))) (Proc.devRef .tc main_v8))
          (after hostOps0_2 (after hostOps0_1 (after hostOps0 (W0 m ρ c))) (Proc.devRef .tc main_v12)) :=
  (W4_arr m ρ c 2).trans (arr0 (V3 m ρ) c)

/-- The kernel program's output array after the second region. -/
theorem norm_after (c : Dev nD) :
    (W7 m ρ c (Proc.devRef .tc main_v18) : Cert.Spec.SFeat.Idx → EReal)
      = Cert.Spec.normArr (after hostOps1_1 (after hostOps1 (W4 m ρ c)) (Proc.devRef .tc main_v13))
          (after hostOps1_1 (after hostOps1 (W4 m ρ c)) (Proc.devRef .tc main_arg3))
          (after hostOps1_1 (after hostOps1 (W4 m ρ c)) (Proc.devRef .tc main_arg4))
          (after hostOps1_1 (after hostOps1 (W4 m ρ c)) (Proc.devRef .tc main_v16))
          (after hostOps1_1 (after hostOps1 (W4 m ρ c)) (Proc.devRef .tc main_v17)) :=
  (W7_arr m ρ c 5).trans (arr1 (V6 m ρ) c)

/-- From arguments that agree, the reference's result array is the kernel program's. -/
theorem result_eq (c : Dev nD) (VR : Valuation Cert.ReferenceIdeal.τ Cert.ReferenceIdeal.sig (Elt Ideal))
    (h0 : VR (Proc.devRef .tc Cert.ReferenceIdeal.main_arg0) = m ((c : Thread nD τ).loc main_arg0))
    (h1 : VR (Proc.devRef .tc Cert.ReferenceIdeal.main_arg1) = m ((c : Thread nD τ).loc main_arg1))
    (h2 : VR (Proc.devRef .tc Cert.ReferenceIdeal.main_arg2) = m ((c : Thread nD τ).loc main_arg2))
    (h3 : VR (Proc.devRef .tc Cert.ReferenceIdeal.main_arg3) = m ((c : Thread nD τ).loc main_arg3))
    (h4 : VR (Proc.devRef .tc Cert.ReferenceIdeal.main_arg4) = m ((c : Thread nD τ).loc main_arg4)) :
    (after ops VR (Proc.devRef .tc Cert.ReferenceIdeal.main_v32) : (⟨3, ![4, 128, 65536]⟩ : Shape).Idx → EReal)
      = W8 m ρ c (Proc.devRef .tc main_v19) := by
  rw [after_ops]
  -- the operands of the feature product
  have e8 := Cert.Sim.pre_feat (W0 m ρ c) VR (m ((c : Thread nD τ).loc main_arg0)) (m ((c : Thread nD τ).loc main_arg1)) rfl rfl h0 h1
  have e12 := Cert.Sim.pre_wt (W0 m ρ c) VR (m ((c : Thread nD τ).loc main_arg2)) rfl h2
  -- the feature products
  have eP : (after opsB (after opsA2 (after opsA1 (after opsA0 VR))) (Proc.devRef .tc Cert.ReferenceIdeal.main_v11) : Cert.Spec.SFeat.Idx → EReal)
      = W4 m ρ c (Proc.devRef .tc main_v13) := by
    rw [Cert.Sim.ref_prod, ← e8, ← e12]
    exact (prod_after m ρ c).symm
  -- mean, variance, and the product itself at the second region's entry
  have eM := Cert.Sim.mid_mean (W4 m ρ c) (after opsB (after opsA2 (after opsA1 (after opsA0 VR)))) _ rfl eP
  have eV := Cert.Sim.mid_var (W4 m ρ c) (after opsB (after opsA2 (after opsA1 (after opsA0 VR)))) _ rfl eP
  have eXK := Cert.Sim.mid_keepK (W4 m ρ c)
  have eXR := Cert.Sim.mid_keepR (after opsB (after opsA2 (after opsA1 (after opsA0 VR))))
  have eG := (Cert.Sim.ref_keep_g VR).trans h3
  have eB := (Cert.Sim.ref_keep_be VR).trans h4
  -- the normalised arrays
  have eN : (after opsD (after opsC1 (after opsC0 (after opsB (after opsA2 (after opsA1 (after opsA0 VR)))))) (Proc.devRef .tc Cert.ReferenceIdeal.main_v31) : Cert.Spec.SFeat.Idx → EReal)
      = W7 m ρ c (Proc.devRef .tc main_v18) := by
    rw [Cert.Sim.ref_norm, eXR, eP, eG, eB, ← eM, ← eV, norm_after m ρ c, eXK, keep_g m ρ c, keep_be m ρ c]
  exact (Cert.Sim.post_eq (W7 m ρ c) _ _ rfl eN).symm

end Cert.Value

end
-- ==== Proof.lean ====
/-
  A graph convolution, tiled kernels against plain array code, equal on the extended reals.

  Both programs take node features [batch 4, channel 128, node 65536], a table of three neighbours per node, sixteen
  128 × 128 weight matrices and a per-channel scale and shift. Each node's feature row is averaged with its three
  neighbours' rows (a gather with a range test, a sum, a division by four), the sixteen matrices are averaged, and the
  averaged rows are multiplied by the averaged matrix; each output channel's mean and variance over all batches and
  nodes are taken; every entry is normalised — ((x − mean) · (variance + ε)^(−1/2)) · scale + shift — and replaced by its
  maximum with zero; the result is transposed back to [batch, channel, node].

  The kernel program does the product and the normalisation in two tiled kernel regions (32 tiles of 8192 rows each),
  the reference does them with a contraction and a chain of broadcasts; everything around them is the same host
  arithmetic in both. On the extended reals a tile's product entry is the same sum over the contracted channel as the
  contraction's, narrowing the operands to bf16 changes nothing, and a per-channel row laid along a tile's rows reads
  the same entry as one laid along the whole array; so the two results agree entry by entry, with no use of the inputs'
  finiteness. The three frames: the two kernel programs' are the launch over their segments; the reference's is its
  straight-line run. No operation of the kernel program is rewritten by the idealization, so nothing is owed for it.
-/
import proofs.«160927_j74062416053231_1_alg».proof.Defs
import proofs.«160927_j74062416053231_1_alg».proof.Proof.Gen.Kernel
import proofs.«160927_j74062416053231_1_alg».proof.Proof.Gen.Kernel.Skeleton
import proofs.«160927_j74062416053231_1_alg».proof.Proof.Gen.Kernel.Launch
import proofs.«160927_j74062416053231_1_alg».proof.Proof.Gen.Kernel.Points
import proofs.«160927_j74062416053231_1_alg».proof.Proof.Gen.Kernel.Frame
import proofs.«160927_j74062416053231_1_alg».proof.Proof.Gen.KernelIdeal
import proofs.«160927_j74062416053231_1_alg».proof.Proof.Gen.KernelIdeal.Skeleton
import proofs.«160927_j74062416053231_1_alg».proof.Proof.Gen.KernelIdeal.Launch
import proofs.«160927_j74062416053231_1_alg».proof.Proof.Gen.KernelIdeal.Points
import proofs.«160927_j74062416053231_1_alg».proof.Proof.Gen.KernelIdeal.Frame
import proofs.«160927_j74062416053231_1_alg».proof.Proof.Gen.ReferenceIdeal
import proofs.«160927_j74062416053231_1_alg».proof.Proof.Gen.Pre_finite_inputs
import proofs.«160927_j74062416053231_1_alg».proof.Proof.Value
import Idealize.ShloMosaic.Adequacy
import Idealize.ShloMosaic.Init

noncomputable section

namespace Cert.Proof

open Idealize.ShloMosaic Idealize.ShloMosaic.TcCoe Idealize.SL.Sem Idealize.ShloMosaic.StableHlo

/-- The kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations none of which writes an argument. -/
theorem frame_referenceIdeal : Cert.frame_ReferenceIdeal := fun m ρ _ =>
  (θ_run Cert.ReferenceIdeal.defs _ _).mono
    (fun _ h c => ⟨(h c _).trans (Cert.Sim.ref_arg0 _), (h c _).trans (Cert.Sim.ref_arg1 _), (h c _).trans (Cert.Sim.ref_arg2 _),
      (h c _).trans (Cert.Sim.ref_arg3 _), (h c _).trans (Cert.Sim.ref_arg4 _)⟩)
    (Cert.ReferenceIdeal.Hand.run_main (F := Ideal) m ρ)

/-- From memories that agree on the arguments both idealized programs run, leave their arguments as launched, and
    return the same array. -/
theorem algebraic : Cert.algebraic_KernelIdeal_ReferenceIdeal := by
  intro m ρ m' ρ' _ hagree
  refine ⟨fun c => Cert.KernelIdeal.Gen.W8 m ρ c (Proc.devRef .tc Cert.KernelIdeal.main_v19),
    Cert.KernelIdeal.Hand.run_result (F := Ideal) m ρ, ?_⟩
  refine (θ_run Cert.ReferenceIdeal.defs _ _).mono (fun _ h c => ?_) (Cert.ReferenceIdeal.Hand.run_main (F := Ideal) m' ρ')
  obtain ⟨h0, h1, h2, h3, h4⟩ := hagree c
  exact ⟨(h c _).trans (Cert.Value.result_eq m ρ c _ h0 h1 h2 h3 h4),
    (h c _).trans (Cert.Sim.ref_arg0 _), (h c _).trans (Cert.Sim.ref_arg1 _), (h c _).trans (Cert.Sim.ref_arg2 _),
    (h c _).trans (Cert.Sim.ref_arg3 _), (h c _).trans (Cert.Sim.ref_arg4 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
